-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x256 .f32) (main_arg1 : IVec S1600000 32) (main_arg2 : IVec S1600000 32) (main_arg3 : FVec F S1600000 .f32) (main_arg4 : FVec F S256x128 .f32) (main_arg5 : FVec F S128 .f32) (main_arg6 : FVec F S128x128 .f32) (main_arg7 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S100000x128 : Shape := ⟨2, ![100000, 128]⟩
abbrev S5000x256 : Shape := ⟨2, ![5000, 256]⟩
abbrev S5000x128 : Shape := ⟨2, ![5000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 123
  | .vmem => 25
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S1600000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S1600000x128, .f32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S1600000x1, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S1600000x128, .f32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S1600000x1, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x128, .f32⟩
  | .hbm, ⟨88, _⟩ => ⟨S1600000x128, .f32⟩
  | .hbm, ⟨89, _⟩ => ⟨S1600000x128, .f32⟩
  | .hbm, ⟨90, _⟩ => ⟨S_, .f32⟩
  | .hbm, ⟨91, _⟩ => ⟨S100000x128, .f32⟩
  | .hbm, ⟨92, _⟩ => ⟨S1600000x1, .i32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S100000x128, .f32⟩
  | .hbm, ⟨97, _⟩ => ⟨S_, .f32⟩
  | .hbm, ⟨98, _⟩ => ⟨S100000x128, .f32⟩
  | .hbm, ⟨99, _⟩ => ⟨S100000x128, .f32⟩
  | .hbm, ⟨100, _⟩ => ⟨S100000x128, .f32⟩
  | .hbm, ⟨101, _⟩ => ⟨S1600000x1, .f32⟩
  | .hbm, ⟨102, _⟩ => ⟨S_, .i32⟩
  | .hbm, ⟨103, _⟩ => ⟨S1600000, .i32⟩
  | .hbm, ⟨104, _⟩ => ⟨S1600000, .i1⟩
  | .hbm, ⟨105, _⟩ => ⟨S_, .i32⟩
  | .hbm, ⟨106, _⟩ => ⟨S1600000, .i32⟩
  | .hbm, ⟨107, _⟩ => ⟨S1600000, .i32⟩
  | .hbm, ⟨108, _⟩ => ⟨S1600000, .i32⟩
  | .hbm, ⟨109, _⟩ => ⟨S1600000x1, .i32⟩
  | .hbm, ⟨110, _⟩ => ⟨S1600000x128, .f32⟩
  | .hbm, ⟨111, _⟩ => ⟨S1600000x128, .f32⟩
  | .hbm, ⟨112, _⟩ => ⟨S1600000x128, .f32⟩
  | .hbm, ⟨113, _⟩ => ⟨S_, .f32⟩
  | .hbm, ⟨114, _⟩ => ⟨S100000x128, .f32⟩
  | .hbm, ⟨115, _⟩ => ⟨S1600000x1, .i32⟩
  | .hbm, ⟨116, _⟩ => ⟨S100000x128, .f32⟩
  | .hbm, ⟨117, _⟩ => ⟨S1x128, .f32⟩
  | .hbm, ⟨118, _⟩ => ⟨S100000x128, .f32⟩
  | .hbm, ⟨119, _⟩ => ⟨S100000x128, .f32⟩
  | .hbm, ⟨120, _⟩ => ⟨S_, .f32⟩
  | .hbm, ⟨121, _⟩ => ⟨S100000x128, .f32⟩
  | .hbm, ⟨122, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_4 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call2_cst : Ref sig .tc := ⟨.hbm, 74, rfl⟩
abbrev main_call2_v0 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_7 : Ref sig .tc := ⟨.hbm, 79, rfl⟩
abbrev main_v56 : Ref sig .tc := ⟨.hbm, 80, rfl⟩
abbrev main_v57 : Ref sig .tc := ⟨.hbm, 81, rfl⟩
abbrev main_c_8 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_9 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call3_cst : Ref sig .tc := ⟨.hbm, 97, rfl⟩
abbrev main_call3_v0 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_10 : Ref sig .tc := ⟨.hbm, 102, rfl⟩
abbrev main_v74 : Ref sig .tc := ⟨.hbm, 103, rfl⟩
abbrev main_v75 : Ref sig .tc := ⟨.hbm, 104, rfl⟩
abbrev main_c_11 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_12 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_call4_cst : Ref sig .tc := ⟨.hbm, 120, rfl⟩
abbrev main_call4_v0 : Ref sig .tc := ⟨.hbm, 121, rfl⟩
abbrev main_v89 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  inb_S5000x256_S5000x256_0_0 : ∀ a, (![0, 0] : Fin 2 → Nat) a + S5000x256.size a ≤ S5000x256.size a
  h_S5000x256 : 0 < S5000x256.numel
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v53) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v71) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 123
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S1600000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S1600000x128, .f32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S1600000x1, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S1600000x128, .f32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S1600000x1, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x128, .f32⟩
  | .hbm, ⟨88, _⟩ => ⟨S1600000x128, .f32⟩
  | .hbm, ⟨89, _⟩ => ⟨S1600000x128, .f32⟩
  | .hbm, ⟨90, _⟩ => ⟨S_, .f32⟩
  | .hbm, ⟨91, _⟩ => ⟨S100000x128, .f32⟩
  | .hbm, ⟨92, _⟩ => ⟨S1600000x1, .i32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S100000x128, .f32⟩
  | .hbm, ⟨97, _⟩ => ⟨S_, .f32⟩
  | .hbm, ⟨98, _⟩ => ⟨S100000x128, .f32⟩
  | .hbm, ⟨99, _⟩ => ⟨S100000x128, .f32⟩
  | .hbm, ⟨100, _⟩ => ⟨S100000x128, .f32⟩
  | .hbm, ⟨101, _⟩ => ⟨S1600000x1, .f32⟩
  | .hbm, ⟨102, _⟩ => ⟨S_, .i32⟩
  | .hbm, ⟨103, _⟩ => ⟨S1600000, .i32⟩
  | .hbm, ⟨104, _⟩ => ⟨S1600000, .i1⟩
  | .hbm, ⟨105, _⟩ => ⟨S_, .i32⟩
  | .hbm, ⟨106, _⟩ => ⟨S1600000, .i32⟩
  | .hbm, ⟨107, _⟩ => ⟨S1600000, .i32⟩
  | .hbm, ⟨108, _⟩ => ⟨S1600000, .i32⟩
  | .hbm, ⟨109, _⟩ => ⟨S1600000x1, .i32⟩
  | .hbm, ⟨110, _⟩ => ⟨S1600000x128, .f32⟩
  | .hbm, ⟨111, _⟩ => ⟨S1600000x128, .f32⟩
  | .hbm, ⟨112, _⟩ => ⟨S1600000x128, .f32⟩
  | .hbm, ⟨113, _⟩ => ⟨S_, .f32⟩
  | .hbm, ⟨114, _⟩ => ⟨S100000x128, .f32⟩
  | .hbm, ⟨115, _⟩ => ⟨S1600000x1, .i32⟩
  | .hbm, ⟨116, _⟩ => ⟨S100000x128, .f32⟩
  | .hbm, ⟨117, _⟩ => ⟨S1x128, .f32⟩
  | .hbm, ⟨118, _⟩ => ⟨S100000x128, .f32⟩
  | .hbm, ⟨119, _⟩ => ⟨S100000x128, .f32⟩
  | .hbm, ⟨120, _⟩ => ⟨S_, .f32⟩
  | .hbm, ⟨121, _⟩ => ⟨S100000x128, .f32⟩
  | .hbm, ⟨122, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_4 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call2_cst : Ref sig .tc := ⟨.hbm, 74, rfl⟩
abbrev main_call2_v0 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_7 : Ref sig .tc := ⟨.hbm, 79, rfl⟩
abbrev main_v56 : Ref sig .tc := ⟨.hbm, 80, rfl⟩
abbrev main_v57 : Ref sig .tc := ⟨.hbm, 81, rfl⟩
abbrev main_c_8 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_9 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call3_cst : Ref sig .tc := ⟨.hbm, 97, rfl⟩
abbrev main_call3_v0 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_10 : Ref sig .tc := ⟨.hbm, 102, rfl⟩
abbrev main_v74 : Ref sig .tc := ⟨.hbm, 103, rfl⟩
abbrev main_v75 : Ref sig .tc := ⟨.hbm, 104, rfl⟩
abbrev main_c_11 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_12 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_call4_cst : Ref sig .tc := ⟨.hbm, 120, rfl⟩
abbrev main_call4_v0 : Ref sig .tc := ⟨.hbm, 121, rfl⟩
abbrev main_v89 : Ref sig .tc := ⟨.hbm, 122, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RefRun.lean ====
import proofs.«403154_j48490180772546_4_alg».proof.Proof.Gen.ReferenceIdeal.Run

/-!
# The reference's run, buffer by buffer

The reference is a straight line of host operations. Every weakly fair execution of it terminates, and each buffer then
holds what the line of operations leaves there when it is folded over the launch contents. The fold is kept as it is:
no operation is opened, so that the line can later be compared with another program's, operation by operation.
-/

noncomputable section

namespace Cert.ReferenceIdeal.RefRun

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- After the reference has run, every buffer holds the fold of its operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.RefRun

end
-- ==== Proof.Keep.lean ====
import proofs.«403154_j48490180772546_4_alg».proof.Proof.Gen.KernelIdeal.Frame

/-!
# A launch changes its result array only

Each of the five launches reads two arrays through input windows and writes one. At the launch's exit the two arrays it
read hold what they held at its entry (an input window's array is never written back), and so does every buffer the
launch has no window on; only the result array differs.
-/

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The first launch: every buffer but its result, the first dense step, is as before. -/
theorem keep0 (c : Dev nD) (b : Ref sig .tc) (hb : b ≠ main_v0) :
    W1 m ρ c (Proc.devRef .tc b) = W0 m ρ c (Proc.devRef .tc b) := by
  by_cases h0 : b = main_arg0
  · subst h0
    exact (W1_arr m ρ c 0).trans (((dat0 (V0 m ρ) c).arrAt_in 0 rfl _).trans (A_eq0 (V0 m ρ) c 0))
  by_cases h1 : b = main_arg4
  · subst h1
    exact (W1_arr m ρ c 1).trans (((dat0 (V0 m ρ) c).arrAt_in 1 rfl _).trans (A_eq0 (V0 m ρ) c 1))
  refine W1_of_ne m ρ c b fun w => ?_
  match w with
  | ⟨0, _⟩ => exact Ne.symm h0
  | ⟨1, _⟩ => exact Ne.symm h1
  | ⟨2, _⟩ => exact Ne.symm hb

/-- The second launch: every buffer but its result is as before. -/
theorem keep1 (c : Dev nD) (b : Ref sig .tc) (hb : b ≠ main_v18) :
    W4 m ρ c (Proc.devRef .tc b) = W3 m ρ c (Proc.devRef .tc b) := by
  by_cases h0 : b = main_v17
  · subst h0
    exact (W4_arr m ρ c 0).trans (((dat1 (V3 m ρ) c).arrAt_in 0 rfl _).trans (A_eq1 (V3 m ρ) c 0))
  by_cases h1 : b = main_arg6
  · subst h1
    exact (W4_arr m ρ c 1).trans (((dat1 (V3 m ρ) c).arrAt_in 1 rfl _).trans (A_eq1 (V3 m ρ) c 1))
  refine W4_of_ne m ρ c b fun w => ?_
  match w with
  | ⟨0, _⟩ => exact Ne.symm h0
  | ⟨1, _⟩ => exact Ne.symm h1
  | ⟨2, _⟩ => exact Ne.symm hb

/-- The third launch: every buffer but its result is as before. -/
theorem keep2 (c : Dev nD) (b : Ref sig .tc) (hb : b ≠ main_v36) :
    W7 m ρ c (Proc.devRef .tc b) = W6 m ρ c (Proc.devRef .tc b) := by
  by_cases h0 : b = main_v35
  · subst h0
    exact (W7_arr m ρ c 0).trans (((dat2 (V6 m ρ) c).arrAt_in 0 rfl _).trans (A_eq2 (V6 m ρ) c 0))
  by_cases h1 : b = main_arg6
  · subst h1
    exact (W7_arr m ρ c 1).trans (((dat2 (V6 m ρ) c).arrAt_in 1 rfl _).trans (A_eq2 (V6 m ρ) c 1))
  refine W7_of_ne m ρ c b fun w => ?_
  match w with
  | ⟨0, _⟩ => exact Ne.symm h0
  | ⟨1, _⟩ => exact Ne.symm h1
  | ⟨2, _⟩ => exact Ne.symm hb

/-- The fourth launch: every buffer but its result is as before. -/
theorem keep3 (c : Dev nD) (b : Ref sig .tc) (hb : b ≠ main_v54) :
    W10 m ρ c (Proc.devRef .tc b) = W9 m ρ c (Proc.devRef .tc b) := by
  by_cases h0 : b = main_v53
  · subst h0
    exact (W10_arr m ρ c 0).trans (((dat3 (V9 m ρ) c).arrAt_in 0 rfl _).trans (A_eq3 (V9 m ρ) c 0))
  by_cases h1 : b = main_arg6
  · subst h1
    exact (W10_arr m ρ c 1).trans (((dat3 (V9 m ρ) c).arrAt_in 1 rfl _).trans (A_eq3 (V9 m ρ) c 1))
  refine W10_of_ne m ρ c b fun w => ?_
  match w with
  | ⟨0, _⟩ => exact Ne.symm h0
  | ⟨1, _⟩ => exact Ne.symm h1
  | ⟨2, _⟩ => exact Ne.symm hb

/-- The fifth launch: every buffer but its result is as before. -/
theorem keep4 (c : Dev nD) (b : Ref sig .tc) (hb : b ≠ main_v72) :
    W13 m ρ c (Proc.devRef .tc b) = W12 m ρ c (Proc.devRef .tc b) := by
  by_cases h0 : b = main_v71
  · subst h0
    exact (W13_arr m ρ c 0).trans (((dat4 (V12 m ρ) c).arrAt_in 0 rfl _).trans (A_eq4 (V12 m ρ) c 0))
  by_cases h1 : b = main_arg6
  · subst h1
    exact (W13_arr m ρ c 1).trans (((dat4 (V12 m ρ) c).arrAt_in 1 rfl _).trans (A_eq4 (V12 m ρ) c 1))
  refine W13_of_ne m ρ c b fun w => ?_
  match w with
  | ⟨0, _⟩ => exact Ne.symm h0
  | ⟨1, _⟩ => exact Ne.symm h1
  | ⟨2, _⟩ => exact Ne.symm hb

end Cert.KernelIdeal.Keep

end
-- ==== Proof.MatSpec.lean ====
import Idealize.ShloMosaic.PureOps.Ideal
import Idealize.ShloMosaic.Lib.ValueIdx

/-!
# The dense step of a layer, as one function

Every layer multiplies the node features, one row per node, by a weight matrix: entry (r, c) of the product is the sum
over the contraction position k of feature (r, k) times weight (k, c), on the extended reals. The first layer contracts
over 256 input features, the others over 128 hidden ones; there are 100000 nodes and 128 output columns.
-/

noncomputable section

open scoped BigOperators

namespace Cert.MatSpec

open Idealize.ShloMosaic Idealize.ShloMosaic.ValueIdx

/-- The product of a 100000 × 256 matrix with a 256 × 128 one, entry by entry. -/
def mm256 (x : (⟨2, ![100000, 256]⟩ : Shape).Idx → EReal) (w : (⟨2, ![256, 128]⟩ : Shape).Idx → EReal) :
    (⟨2, ![100000, 128]⟩ : Shape).Idx → EReal :=
  fun i => ∑ k : Fin 256, x (ix2 (n0 := 100000) (n1 := 256) (i 0) k) * w (ix2 (n0 := 256) (n1 := 128) k (i 1))

/-- The product of a 100000 × 128 matrix with a 128 × 128 one, entry by entry. -/
def mm128 (x : (⟨2, ![100000, 128]⟩ : Shape).Idx → EReal) (w : (⟨2, ![128, 128]⟩ : Shape).Idx → EReal) :
    (⟨2, ![100000, 128]⟩ : Shape).Idx → EReal :=
  fun i => ∑ k : Fin 128, x (ix2 (n0 := 100000) (n1 := 128) (i 0) k) * w (ix2 (n0 := 128) (n1 := 128) k (i 1))

end Cert.MatSpec

end
-- ==== Proof.Region0.lean ====
import proofs.«403154_j48490180772546_4_alg».proof.Proof.Gen.KernelIdeal.Frame
import proofs.«403154_j48490180772546_4_alg».proof.Proof.MatSpec
import Idealize.ShloMosaic.Lib.Pipeline.Value
import Idealize.ShloMosaic.Lib.ValueIdx
import Idealize.ShloMosaic.PureOps.Ideal.Laws

/-!
# The first launch computes the first layer's dense step

The launch walks the 100000 node rows in 20 blocks of 5000. At each point it loads a block of 5000 rows of the features
(all 256 columns) and the whole 256 × 128 weight matrix, multiplies them on the matrix unit into a zero accumulator,
and stores the 5000 × 128 product, which is written back to the same rows of the result. An entry of a block's product
is the sum over the 256 contraction positions of a feature of that row times a weight of that column; the blocks' rows
partition the node rows; so the result array ends as the whole product.
-/

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

/-! ## The matrix unit's product at an entry -/

theorem lhs_0 (i : S5000x128.Idx) (q : dot_S5000x256_S256x128_S5000x128_1_0_0_1_n_n.contr.Idx) : (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_1 (i : S5000x128.Idx) (q : dot_S5000x256_S256x128_S5000x128_1_0_0_1_n_n.contr.Idx) : (dot_S5000x256_S256x128_S5000x128_1_0_0_1_n_n.lhsIdx i q 1).val = (q ⟨0, by decide⟩).val :=
  dot_S5000x256_S256x128_S5000x128_1_0_0_1_n_n.lhsIdx_val_of_single rfl i q
theorem rhs_0 (i : S5000x128.Idx) (q : dot_S5000x256_S256x128_S5000x128_1_0_0_1_n_n.contr.Idx) : (dot_S5000x256_S256x128_S5000x128_1_0_0_1_n_n.rhsIdx i q 0).val = (q ⟨0, by decide⟩).val :=
  dot_S5000x256_S256x128_S5000x128_1_0_0_1_n_n.rhsIdx_val_of_single rfl i q
theorem rhs_1 (i : S5000x128.Idx) (q : dot_S5000x256_S256x128_S5000x128_1_0_0_1_n_n.contr.Idx) : (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The body's one payload at entry (p, q): the sum over the contraction position of the loaded features' row p times the
    loaded weights' column q. -/
theorem pay_apply (x0 : Vec Ideal S5000x256 .f32) (x1 : Vec Ideal S256x128 .f32) (p : Fin 5000) (q : Fin 128) :
    k0_pay1 (F := Ideal) x0 x1 (ix2 (n0 := 5000) (n1 := 128) p q)
      = ∑ k : Fin 256, x0 (ix2 (n0 := 5000) (n1 := 256) p k) * x1 (ix2 (n0 := 256) (n1 := 128) k q) := by
  unfold k0_pay1
  refine (Ideal.matmul_constant_zero_apply dot_S5000x256_S256x128_S5000x128_1_0_0_1_n_n (some .fp32) x0 x1 (ix2 (n0 := 5000) (n1 := 128) p q)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 (n0 := 5000) (n1 := 128) p q) ((contrEquiv1 dot_S5000x256_S256x128_S5000x128_1_0_0_1_n_n 256 rfl rfl).symm k)
      = ix2 (n0 := 5000) (n1 := 256) p k := funext fun a => Fin.ext (by
    match a with
    | ⟨0, _⟩ => exact lhs_0 _ _
    | ⟨1, _⟩ => exact (lhs_1 _ _).trans hk)
  have er : dot_S5000x256_S256x128_S5000x128_1_0_0_1_n_n.rhsIdx (ix2 (n0 := 5000) (n1 := 128) p q) ((contrEquiv1 dot_S5000x256_S256x128_S5000x128_1_0_0_1_n_n 256 rfl rfl).symm k)
      = ix2 (n0 := 256) (n1 := 128) k q := funext fun a => Fin.ext (by
    match a with
    | ⟨0, _⟩ => exact (rhs_0 _ _).trans hk
    | ⟨1, _⟩ => exact rhs_1 _ _)
  rw [el, er]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where the three windows' blocks sit at point `t`: the feature block and the result block at row block `t`, the
    weights whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t`, entry (p, k), is the feature array's entry (5000 t + p, k). -/
theorem feat_apply (c : Dev nD) (t : Fin cfg0.N) (p : Fin 5000) (k : Fin 256) (i : (⟨2, ![100000, 256]⟩ : Shape).Idx)
    (hi0 : (i 0).val = t.val * 5000 + p.val) (hi1 : (i 1).val = k.val) :
    (iblk0 V c 0 t : Vec Ideal S5000x256 .f32) (ix2 (n0 := 5000) (n1 := 256) p k)
      = (V c (Pipeline.arrRef spec0 0) : (⟨2, ![100000, 256]⟩ : Shape).Idx → EReal) i := by
  obtain ⟨e00, e01, -⟩ := idx_facts t
  unfold iblk0
  rw [View.read_apply]
  refine congrArg (V c (Pipeline.arrRef spec0 0)) ?_
  funext a
  apply Fin.ext
  match a with
  | ⟨0, _⟩ => show win0_0.index t 0 * 5000 + 1 * p.val = (i 0).val; rw [e00, hi0]; omega
  | ⟨1, _⟩ => show win0_0.index t 1 * 256 + 1 * k.val = (i 1).val; rw [e01, hi1]; omega

/-- The weight block at every point is the whole weight matrix. -/
theorem wt_apply (c : Dev nD) (t : Fin cfg0.N) (k : Fin 256) (q : Fin 128) (i : (⟨2, ![256, 128]⟩ : Shape).Idx)
    (hi0 : (i 0).val = k.val) (hi1 : (i 1).val = q.val) :
    (iblk0 V c 1 t : Vec Ideal S256x128 .f32) (ix2 (n0 := 256) (n1 := 128) k q)
      = (V c (Pipeline.arrRef spec0 1) : (⟨2, ![256, 128]⟩ : Shape).Idx → EReal) i := by
  obtain ⟨-, -, e10, e11, -⟩ := idx_facts t
  unfold iblk0
  rw [View.read_apply]
  refine congrArg (V c (Pipeline.arrRef spec0 1)) ?_
  funext a
  apply Fin.ext
  match a with
  | ⟨0, _⟩ => show win0_1.index t 0 * 256 + 1 * k.val = (i 0).val; rw [e10, hi0]; omega
  | ⟨1, _⟩ => show win0_1.index t 1 * 128 + 1 * q.val = (i 1).val; rw [e11, hi1]; omega

/-- What point `t` writes back is block `t` of the whole product of the arrays the launch finds. -/
theorem flushed_eq (c : Dev nD) (t : Fin cfg0.N) :
    (dat0 (F := Ideal) V c).flushed 2 t = ((cfg0.win 2).blk t).view.read (Elt Ideal)
      (Cert.MatSpec.mm256 (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨-, -, -, -, e20, e21⟩ := idx_facts t
  funext j
  obtain ⟨p, q, rfl⟩ : ∃ (p : Fin 5000) (q : Fin 128), j = ix2 (n0 := 5000) (n1 := 128) p q := ⟨j 0, j 1, eq_ix2 j⟩
  show k0_pay1 (F := Ideal) (iblk0 V c 0 t) (iblk0 V c 1 t) (ix2 (n0 := 5000) (n1 := 128) p q)
    = Cert.MatSpec.mm256 (V c (Pipeline.arrRef spec0 0)) (V c (Pipeline.arrRef spec0 1)) (((cfg0.win 2).blk t).view.emb (ix2 (n0 := 5000) (n1 := 128) p q))
  refine (pay_apply (iblk0 V c 0 t) (iblk0 V c 1 t) p q).trans ?_
  unfold Cert.MatSpec.mm256
  refine Finset.sum_congr rfl fun k _ => ?_
  have h0 : ((((cfg0.win 2).blk t).view.emb (ix2 (n0 := 5000) (n1 := 128) p q)) 0).val = t.val * 5000 + p.val := by
    show win0_2.index t 0 * 5000 + 1 * p.val = _; rw [e20]; omega
  have h1 : ((((cfg0.win 2).blk t).view.emb (ix2 (n0 := 5000) (n1 := 128) p q)) 1).val = q.val := by
    show win0_2.index t 1 * 128 + 1 * q.val = _; rw [e21]; omega
  exact congrArg₂ (· * ·)
    (feat_apply V c t p k (ix2 (n0 := 100000) (n1 := 256) ((((cfg0.win 2).blk t).view.emb (ix2 (n0 := 5000) (n1 := 128) p q)) 0) k) h0 rfl)
    (wt_apply V c t k q (ix2 (n0 := 256) (n1 := 128) k ((((cfg0.win 2).blk t).view.emb (ix2 (n0 := 5000) (n1 := 128) p q)) 1)) rfl h1)

/-- Every entry of the result lies in some point's block: row r in block r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, e20, e21⟩ := idx_facts ⟨(i 0).val / 5000, hlt⟩
  refine ⟨⟨(i 0).val / 5000, hlt⟩, flush0_2 _, ?_⟩
  show i ∈ ((View.whole main_v0).slice (win0_2.rect ⟨(i 0).val / 5000, hlt⟩)).set
  rw [View.set_slice_whole, Rect.mem_set_unit]
  intro a
  match a with
  | ⟨0, _⟩ =>
    show win0_2.index ⟨(i 0).val / 5000, hlt⟩ 0 * 5000 ≤ (i 0).val ∧ (i 0).val < win0_2.index ⟨(i 0).val / 5000, hlt⟩ 0 * 5000 + 5000
    rw [e20]; show (i 0).val / 5000 * 5000 ≤ (i 0).val ∧ (i 0).val < (i 0).val / 5000 * 5000 + 5000; omega
  | ⟨1, _⟩ =>
    show win0_2.index ⟨(i 0).val / 5000, hlt⟩ 1 * 128 ≤ (i 1).val ∧ (i 1).val < win0_2.index ⟨(i 0).val / 5000, hlt⟩ 1 * 128 + 128
    rw [e21]; omega

/-- So the result array ends as the whole product of the arrays the launch finds. -/
theorem out_eq (c : Dev nD) :
    (dat0 (F := Ideal) V c).arrAt 2 cfg0.N = Cert.MatSpec.mm256 (V c (Pipeline.arrRef spec0 0)) (V c (Pipeline.arrRef spec0 1)) :=
  (dat0 V c).arrAt_eq_of_cover 2 _ (fun t _ => flushed_eq V c t) cover

end Cert.KernelIdeal.Region0

end
-- ==== Proof.Region1.lean ====
import proofs.«403154_j48490180772546_4_alg».proof.Proof.Gen.KernelIdeal.Frame
import proofs.«403154_j48490180772546_4_alg».proof.Proof.MatSpec
import Idealize.ShloMosaic.Lib.Pipeline.Value
import Idealize.ShloMosaic.Lib.ValueIdx
import Idealize.ShloMosaic.PureOps.Ideal.Laws

/-!
# The second launch computes the second layer's dense step

The launch walks the 100000 node rows in 20 blocks of 5000. At each point it loads a block of 5000 rows of the hidden
features (all 128 columns) and the whole 128 × 128 weight matrix, multiplies them on the matrix unit into a zero
accumulator, and stores the 5000 × 128 product, which is written back to the same rows of the result. An entry of a
block's product is the sum over the 128 contraction positions of a feature of that row times a weight of that column;
the blocks' rows partition the node rows; so the result array ends as the whole product.
-/

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

/-! ## The matrix unit's product at an entry -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's one payload at entry (p, q): the sum over the contraction position of the loaded features' row p times the
    loaded weights' column q (the shape cast in front of the product is between equal shapes: the identity). -/
theorem pay_apply (x0 : Vec Ideal S5000x128 .f32) (x1 : Vec Ideal S128x128 .f32) (p : Fin 5000) (q : Fin 128) :
    k1_pay1 (F := Ideal) x0 x1 (ix2 (n0 := 5000) (n1 := 128) p q)
      = ∑ k : Fin 128, x0 (ix2 (n0 := 5000) (n1 := 128) p k) * x1 (ix2 (n0 := 128) (n1 := 128) k q) := by
  unfold k1_pay1
  rw [shapeCast_self]
  refine (Ideal.matmul_constant_zero_apply dot_S5000x128_S128x128_S5000x128_1_0_0_1_n_n (some .fp32) x0 x1 (ix2 (n0 := 5000) (n1 := 128) p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 (n0 := 5000) (n1 := 128) p q) ((contrEquiv1 dot_S5000x128_S128x128_S5000x128_1_0_0_1_n_n 128 rfl rfl).symm k)
      = ix2 (n0 := 5000) (n1 := 128) p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 (n0 := 5000) (n1 := 128) p q) ((contrEquiv1 dot_S5000x128_S128x128_S5000x128_1_0_0_1_n_n 128 rfl rfl).symm k)
      = ix2 (n0 := 128) (n1 := 128) k q := funext fun a => Fin.ext (by
    match a with
    | ⟨0, _⟩ => exact (rhs_0 _ _).trans hk
    | ⟨1, _⟩ => exact rhs_1 _ _)
  rw [el, er]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where the three windows' blocks sit at point `t`: the feature block and the result block at row block `t`, the
    weights whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The feature block at point `t`, entry (p, k), is the feature array's entry (5000 t + p, k). -/
theorem feat_apply (c : Dev nD) (t : Fin cfg1.N) (p : Fin 5000) (k : Fin 128) (i : (⟨2, ![100000, 128]⟩ : Shape).Idx)
    (hi0 : (i 0).val = t.val * 5000 + p.val) (hi1 : (i 1).val = k.val) :
    (iblk1 V c 0 t : Vec Ideal S5000x128 .f32) (ix2 (n0 := 5000) (n1 := 128) p k)
      = (V c (Pipeline.arrRef spec1 0) : (⟨2, ![100000, 128]⟩ : Shape).Idx → EReal) i := by
  obtain ⟨e00, e01, -⟩ := idx_facts t
  unfold iblk1
  rw [View.read_apply]
  refine congrArg (V c (Pipeline.arrRef spec1 0)) ?_
  funext a
  apply Fin.ext
  match a with
  | ⟨0, _⟩ => show win1_0.index t 0 * 5000 + 1 * p.val = (i 0).val; rw [e00, hi0]; omega
  | ⟨1, _⟩ => show win1_0.index t 1 * 128 + 1 * k.val = (i 1).val; rw [e01, hi1]; omega

/-- The weight block at every point is the whole weight matrix. -/
theorem wt_apply (c : Dev nD) (t : Fin cfg1.N) (k : Fin 128) (q : Fin 128) (i : (⟨2, ![128, 128]⟩ : Shape).Idx)
    (hi0 : (i 0).val = k.val) (hi1 : (i 1).val = q.val) :
    (iblk1 V c 1 t : Vec Ideal S128x128 .f32) (ix2 (n0 := 128) (n1 := 128) k q)
      = (V c (Pipeline.arrRef spec1 1) : (⟨2, ![128, 128]⟩ : Shape).Idx → EReal) i := by
  obtain ⟨-, -, e10, e11, -⟩ := idx_facts t
  unfold iblk1
  rw [View.read_apply]
  refine congrArg (V c (Pipeline.arrRef spec1 1)) ?_
  funext a
  apply Fin.ext
  match a with
  | ⟨0, _⟩ => show win1_1.index t 0 * 128 + 1 * k.val = (i 0).val; rw [e10, hi0]; omega
  | ⟨1, _⟩ => show win1_1.index t 1 * 128 + 1 * q.val = (i 1).val; rw [e11, hi1]; omega

/-- What point `t` writes back is block `t` of the whole product of the arrays the launch finds. -/
theorem flushed_eq (c : Dev nD) (t : Fin cfg1.N) :
    (dat1 (F := Ideal) V c).flushed 2 t = ((cfg1.win 2).blk t).view.read (Elt Ideal)
      (Cert.MatSpec.mm128 (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨-, -, -, -, e20, e21⟩ := idx_facts t
  funext j
  obtain ⟨p, q, rfl⟩ : ∃ (p : Fin 5000) (q : Fin 128), j = ix2 (n0 := 5000) (n1 := 128) p q := ⟨j 0, j 1, eq_ix2 j⟩
  show k1_pay1 (F := Ideal) (iblk1 V c 0 t) (iblk1 V c 1 t) (ix2 (n0 := 5000) (n1 := 128) p q)
    = Cert.MatSpec.mm128 (V c (Pipeline.arrRef spec1 0)) (V c (Pipeline.arrRef spec1 1)) (((cfg1.win 2).blk t).view.emb (ix2 (n0 := 5000) (n1 := 128) p q))
  refine (pay_apply (iblk1 V c 0 t) (iblk1 V c 1 t) p q).trans ?_
  unfold Cert.MatSpec.mm128
  refine Finset.sum_congr rfl fun k _ => ?_
  have h0 : ((((cfg1.win 2).blk t).view.emb (ix2 (n0 := 5000) (n1 := 128) p q)) 0).val = t.val * 5000 + p.val := by
    show win1_2.index t 0 * 5000 + 1 * p.val = _; rw [e20]; omega
  have h1 : ((((cfg1.win 2).blk t).view.emb (ix2 (n0 := 5000) (n1 := 128) p q)) 1).val = q.val := by
    show win1_2.index t 1 * 128 + 1 * q.val = _; rw [e21]; omega
  exact congrArg₂ (· * ·)
    (feat_apply V c t p k (ix2 (n0 := 100000) (n1 := 128) ((((cfg1.win 2).blk t).view.emb (ix2 (n0 := 5000) (n1 := 128) p q)) 0) k) h0 rfl)
    (wt_apply V c t k q (ix2 (n0 := 128) (n1 := 128) k ((((cfg1.win 2).blk t).view.emb (ix2 (n0 := 5000) (n1 := 128) p q)) 1)) rfl h1)

/-- Every entry of the result lies in some point's block: row r in block r / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨-, -, -, -, e20, e21⟩ := idx_facts ⟨(i 0).val / 5000, hlt⟩
  refine ⟨⟨(i 0).val / 5000, hlt⟩, flush1_2 _, ?_⟩
  show i ∈ ((View.whole main_v18).slice (win1_2.rect ⟨(i 0).val / 5000, hlt⟩)).set
  rw [View.set_slice_whole, Rect.mem_set_unit]
  intro a
  match a with
  | ⟨0, _⟩ =>
    show win1_2.index ⟨(i 0).val / 5000, hlt⟩ 0 * 5000 ≤ (i 0).val ∧ (i 0).val < win1_2.index ⟨(i 0).val / 5000, hlt⟩ 0 * 5000 + 5000
    rw [e20]; show (i 0).val / 5000 * 5000 ≤ (i 0).val ∧ (i 0).val < (i 0).val / 5000 * 5000 + 5000; omega
  | ⟨1, _⟩ =>
    show win1_2.index ⟨(i 0).val / 5000, hlt⟩ 1 * 128 ≤ (i 1).val ∧ (i 1).val < win1_2.index ⟨(i 0).val / 5000, hlt⟩ 1 * 128 + 128
    rw [e21]; omega

/-- So the result array ends as the whole product of the arrays the launch finds. -/
theorem out_eq (c : Dev nD) :
    (dat1 (F := Ideal) V c).arrAt 2 cfg1.N = Cert.MatSpec.mm128 (V c (Pipeline.arrRef spec1 0)) (V c (Pipeline.arrRef spec1 1)) :=
  (dat1 V c).arrAt_eq_of_cover 2 _ (fun t _ => flushed_eq V c t) cover

end Cert.KernelIdeal.Region1

end
-- ==== Proof.Region2.lean ====
import proofs.«403154_j48490180772546_4_alg».proof.Proof.Gen.KernelIdeal.Frame
import proofs.«403154_j48490180772546_4_alg».proof.Proof.MatSpec
import Idealize.ShloMosaic.Lib.Pipeline.Value
import Idealize.ShloMosaic.Lib.ValueIdx
import Idealize.ShloMosaic.PureOps.Ideal.Laws

/-!
# The third launch computes the third layer's dense step

The launch walks the 100000 node rows in 20 blocks of 5000. At each point it loads a block of 5000 rows of the hidden
features (all 128 columns) and the whole 128 × 128 weight matrix, multiplies them on the matrix unit into a zero
accumulator, and stores the 5000 × 128 product, which is written back to the same rows of the result. An entry of a
block's product is the sum over the 128 contraction positions of a feature of that row times a weight of that column;
the blocks' rows partition the node rows; so the result array ends as the whole product.
-/

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

/-! ## The matrix unit's product at an entry -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's one payload at entry (p, q): the sum over the contraction position of the loaded features' row p times the
    loaded weights' column q (the shape cast in front of the product is between equal shapes: the identity). -/
theorem pay_apply (x0 : Vec Ideal S5000x128 .f32) (x1 : Vec Ideal S128x128 .f32) (p : Fin 5000) (q : Fin 128) :
    k2_pay1 (F := Ideal) x0 x1 (ix2 (n0 := 5000) (n1 := 128) p q)
      = ∑ k : Fin 128, x0 (ix2 (n0 := 5000) (n1 := 128) p k) * x1 (ix2 (n0 := 128) (n1 := 128) k q) := by
  unfold k2_pay1
  rw [shapeCast_self]
  refine (Ideal.matmul_constant_zero_apply dot_S5000x128_S128x128_S5000x128_1_0_0_1_n_n (some .fp32) x0 x1 (ix2 (n0 := 5000) (n1 := 128) p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 (n0 := 5000) (n1 := 128) p q) ((contrEquiv1 dot_S5000x128_S128x128_S5000x128_1_0_0_1_n_n 128 rfl rfl).symm k)
      = ix2 (n0 := 5000) (n1 := 128) p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 (n0 := 5000) (n1 := 128) p q) ((contrEquiv1 dot_S5000x128_S128x128_S5000x128_1_0_0_1_n_n 128 rfl rfl).symm k)
      = ix2 (n0 := 128) (n1 := 128) k q := funext fun a => Fin.ext (by
    match a with
    | ⟨0, _⟩ => exact (rhs_0 _ _).trans hk
    | ⟨1, _⟩ => exact rhs_1 _ _)
  rw [el, er]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where the three windows' blocks sit at point `t`: the feature block and the result block at row block `t`, the
    weights whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature block at point `t`, entry (p, k), is the feature array's entry (5000 t + p, k). -/
theorem feat_apply (c : Dev nD) (t : Fin cfg2.N) (p : Fin 5000) (k : Fin 128) (i : (⟨2, ![100000, 128]⟩ : Shape).Idx)
    (hi0 : (i 0).val = t.val * 5000 + p.val) (hi1 : (i 1).val = k.val) :
    (iblk2 V c 0 t : Vec Ideal S5000x128 .f32) (ix2 (n0 := 5000) (n1 := 128) p k)
      = (V c (Pipeline.arrRef spec2 0) : (⟨2, ![100000, 128]⟩ : Shape).Idx → EReal) i := by
  obtain ⟨e00, e01, -⟩ := idx_facts t
  unfold iblk2
  rw [View.read_apply]
  refine congrArg (V c (Pipeline.arrRef spec2 0)) ?_
  funext a
  apply Fin.ext
  match a with
  | ⟨0, _⟩ => show win2_0.index t 0 * 5000 + 1 * p.val = (i 0).val; rw [e00, hi0]; omega
  | ⟨1, _⟩ => show win2_0.index t 1 * 128 + 1 * k.val = (i 1).val; rw [e01, hi1]; omega

/-- The weight block at every point is the whole weight matrix. -/
theorem wt_apply (c : Dev nD) (t : Fin cfg2.N) (k : Fin 128) (q : Fin 128) (i : (⟨2, ![128, 128]⟩ : Shape).Idx)
    (hi0 : (i 0).val = k.val) (hi1 : (i 1).val = q.val) :
    (iblk2 V c 1 t : Vec Ideal S128x128 .f32) (ix2 (n0 := 128) (n1 := 128) k q)
      = (V c (Pipeline.arrRef spec2 1) : (⟨2, ![128, 128]⟩ : Shape).Idx → EReal) i := by
  obtain ⟨-, -, e10, e11, -⟩ := idx_facts t
  unfold iblk2
  rw [View.read_apply]
  refine congrArg (V c (Pipeline.arrRef spec2 1)) ?_
  funext a
  apply Fin.ext
  match a with
  | ⟨0, _⟩ => show win2_1.index t 0 * 128 + 1 * k.val = (i 0).val; rw [e10, hi0]; omega
  | ⟨1, _⟩ => show win2_1.index t 1 * 128 + 1 * q.val = (i 1).val; rw [e11, hi1]; omega

/-- What point `t` writes back is block `t` of the whole product of the arrays the launch finds. -/
theorem flushed_eq (c : Dev nD) (t : Fin cfg2.N) :
    (dat2 (F := Ideal) V c).flushed 2 t = ((cfg2.win 2).blk t).view.read (Elt Ideal)
      (Cert.MatSpec.mm128 (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨-, -, -, -, e20, e21⟩ := idx_facts t
  funext j
  obtain ⟨p, q, rfl⟩ : ∃ (p : Fin 5000) (q : Fin 128), j = ix2 (n0 := 5000) (n1 := 128) p q := ⟨j 0, j 1, eq_ix2 j⟩
  show k2_pay1 (F := Ideal) (iblk2 V c 0 t) (iblk2 V c 1 t) (ix2 (n0 := 5000) (n1 := 128) p q)
    = Cert.MatSpec.mm128 (V c (Pipeline.arrRef spec2 0)) (V c (Pipeline.arrRef spec2 1)) (((cfg2.win 2).blk t).view.emb (ix2 (n0 := 5000) (n1 := 128) p q))
  refine (pay_apply (iblk2 V c 0 t) (iblk2 V c 1 t) p q).trans ?_
  unfold Cert.MatSpec.mm128
  refine Finset.sum_congr rfl fun k _ => ?_
  have h0 : ((((cfg2.win 2).blk t).view.emb (ix2 (n0 := 5000) (n1 := 128) p q)) 0).val = t.val * 5000 + p.val := by
    show win2_2.index t 0 * 5000 + 1 * p.val = _; rw [e20]; omega
  have h1 : ((((cfg2.win 2).blk t).view.emb (ix2 (n0 := 5000) (n1 := 128) p q)) 1).val = q.val := by
    show win2_2.index t 1 * 128 + 1 * q.val = _; rw [e21]; omega
  exact congrArg₂ (· * ·)
    (feat_apply V c t p k (ix2 (n0 := 100000) (n1 := 128) ((((cfg2.win 2).blk t).view.emb (ix2 (n0 := 5000) (n1 := 128) p q)) 0) k) h0 rfl)
    (wt_apply V c t k q (ix2 (n0 := 128) (n1 := 128) k ((((cfg2.win 2).blk t).view.emb (ix2 (n0 := 5000) (n1 := 128) p q)) 1)) rfl h1)

/-- Every entry of the result lies in some point's block: row r in block r / 5000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  have hlt : (i 0).val / 5000 < cfg2.N := by rw [hN]; omega
  obtain ⟨-, -, -, -, e20, e21⟩ := idx_facts ⟨(i 0).val / 5000, hlt⟩
  refine ⟨⟨(i 0).val / 5000, hlt⟩, flush2_2 _, ?_⟩
  show i ∈ ((View.whole main_v36).slice (win2_2.rect ⟨(i 0).val / 5000, hlt⟩)).set
  rw [View.set_slice_whole, Rect.mem_set_unit]
  intro a
  match a with
  | ⟨0, _⟩ =>
    show win2_2.index ⟨(i 0).val / 5000, hlt⟩ 0 * 5000 ≤ (i 0).val ∧ (i 0).val < win2_2.index ⟨(i 0).val / 5000, hlt⟩ 0 * 5000 + 5000
    rw [e20]; show (i 0).val / 5000 * 5000 ≤ (i 0).val ∧ (i 0).val < (i 0).val / 5000 * 5000 + 5000; omega
  | ⟨1, _⟩ =>
    show win2_2.index ⟨(i 0).val / 5000, hlt⟩ 1 * 128 ≤ (i 1).val ∧ (i 1).val < win2_2.index ⟨(i 0).val / 5000, hlt⟩ 1 * 128 + 128
    rw [e21]; omega

/-- So the result array ends as the whole product of the arrays the launch finds. -/
theorem out_eq (c : Dev nD) :
    (dat2 (F := Ideal) V c).arrAt 2 cfg2.N = Cert.MatSpec.mm128 (V c (Pipeline.arrRef spec2 0)) (V c (Pipeline.arrRef spec2 1)) :=
  (dat2 V c).arrAt_eq_of_cover 2 _ (fun t _ => flushed_eq V c t) cover

end Cert.KernelIdeal.Region2

end
-- ==== Proof.Region3.lean ====
import proofs.«403154_j48490180772546_4_alg».proof.Proof.Gen.KernelIdeal.Frame
import proofs.«403154_j48490180772546_4_alg».proof.Proof.MatSpec
import Idealize.ShloMosaic.Lib.Pipeline.Value
import Idealize.ShloMosaic.Lib.ValueIdx
import Idealize.ShloMosaic.PureOps.Ideal.Laws

/-!
# The fourth launch computes the fourth layer's dense step

The launch walks the 100000 node rows in 20 blocks of 5000. At each point it loads a block of 5000 rows of the hidden
features (all 128 columns) and the whole 128 × 128 weight matrix, multiplies them on the matrix unit into a zero
accumulator, and stores the 5000 × 128 product, which is written back to the same rows of the result. An entry of a
block's product is the sum over the 128 contraction positions of a feature of that row times a weight of that column;
the blocks' rows partition the node rows; so the result array ends as the whole product.
-/

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat)

/-! ## The matrix unit's product at an entry -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's one payload at entry (p, q): the sum over the contraction position of the loaded features' row p times the
    loaded weights' column q (the shape cast in front of the product is between equal shapes: the identity). -/
theorem pay_apply (x0 : Vec Ideal S5000x128 .f32) (x1 : Vec Ideal S128x128 .f32) (p : Fin 5000) (q : Fin 128) :
    k3_pay1 (F := Ideal) x0 x1 (ix2 (n0 := 5000) (n1 := 128) p q)
      = ∑ k : Fin 128, x0 (ix2 (n0 := 5000) (n1 := 128) p k) * x1 (ix2 (n0 := 128) (n1 := 128) k q) := by
  unfold k3_pay1
  rw [shapeCast_self]
  refine (Ideal.matmul_constant_zero_apply dot_S5000x128_S128x128_S5000x128_1_0_0_1_n_n (some .fp32) x0 x1 (ix2 (n0 := 5000) (n1 := 128) p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 (n0 := 5000) (n1 := 128) p q) ((contrEquiv1 dot_S5000x128_S128x128_S5000x128_1_0_0_1_n_n 128 rfl rfl).symm k)
      = ix2 (n0 := 5000) (n1 := 128) p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 (n0 := 5000) (n1 := 128) p q) ((contrEquiv1 dot_S5000x128_S128x128_S5000x128_1_0_0_1_n_n 128 rfl rfl).symm k)
      = ix2 (n0 := 128) (n1 := 128) k q := funext fun a => Fin.ext (by
    match a with
    | ⟨0, _⟩ => exact (rhs_0 _ _).trans hk
    | ⟨1, _⟩ => exact rhs_1 _ _)
  rw [el, er]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where the three windows' blocks sit at point `t`: the feature block and the result block at row block `t`, the
    weights whole. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The feature block at point `t`, entry (p, k), is the feature array's entry (5000 t + p, k). -/
theorem feat_apply (c : Dev nD) (t : Fin cfg3.N) (p : Fin 5000) (k : Fin 128) (i : (⟨2, ![100000, 128]⟩ : Shape).Idx)
    (hi0 : (i 0).val = t.val * 5000 + p.val) (hi1 : (i 1).val = k.val) :
    (iblk3 V c 0 t : Vec Ideal S5000x128 .f32) (ix2 (n0 := 5000) (n1 := 128) p k)
      = (V c (Pipeline.arrRef spec3 0) : (⟨2, ![100000, 128]⟩ : Shape).Idx → EReal) i := by
  obtain ⟨e00, e01, -⟩ := idx_facts t
  unfold iblk3
  rw [View.read_apply]
  refine congrArg (V c (Pipeline.arrRef spec3 0)) ?_
  funext a
  apply Fin.ext
  match a with
  | ⟨0, _⟩ => show win3_0.index t 0 * 5000 + 1 * p.val = (i 0).val; rw [e00, hi0]; omega
  | ⟨1, _⟩ => show win3_0.index t 1 * 128 + 1 * k.val = (i 1).val; rw [e01, hi1]; omega

/-- The weight block at every point is the whole weight matrix. -/
theorem wt_apply (c : Dev nD) (t : Fin cfg3.N) (k : Fin 128) (q : Fin 128) (i : (⟨2, ![128, 128]⟩ : Shape).Idx)
    (hi0 : (i 0).val = k.val) (hi1 : (i 1).val = q.val) :
    (iblk3 V c 1 t : Vec Ideal S128x128 .f32) (ix2 (n0 := 128) (n1 := 128) k q)
      = (V c (Pipeline.arrRef spec3 1) : (⟨2, ![128, 128]⟩ : Shape).Idx → EReal) i := by
  obtain ⟨-, -, e10, e11, -⟩ := idx_facts t
  unfold iblk3
  rw [View.read_apply]
  refine congrArg (V c (Pipeline.arrRef spec3 1)) ?_
  funext a
  apply Fin.ext
  match a with
  | ⟨0, _⟩ => show win3_1.index t 0 * 128 + 1 * k.val = (i 0).val; rw [e10, hi0]; omega
  | ⟨1, _⟩ => show win3_1.index t 1 * 128 + 1 * q.val = (i 1).val; rw [e11, hi1]; omega

/-- What point `t` writes back is block `t` of the whole product of the arrays the launch finds. -/
theorem flushed_eq (c : Dev nD) (t : Fin cfg3.N) :
    (dat3 (F := Ideal) V c).flushed 2 t = ((cfg3.win 2).blk t).view.read (Elt Ideal)
      (Cert.MatSpec.mm128 (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  obtain ⟨-, -, -, -, e20, e21⟩ := idx_facts t
  funext j
  obtain ⟨p, q, rfl⟩ : ∃ (p : Fin 5000) (q : Fin 128), j = ix2 (n0 := 5000) (n1 := 128) p q := ⟨j 0, j 1, eq_ix2 j⟩
  show k3_pay1 (F := Ideal) (iblk3 V c 0 t) (iblk3 V c 1 t) (ix2 (n0 := 5000) (n1 := 128) p q)
    = Cert.MatSpec.mm128 (V c (Pipeline.arrRef spec3 0)) (V c (Pipeline.arrRef spec3 1)) (((cfg3.win 2).blk t).view.emb (ix2 (n0 := 5000) (n1 := 128) p q))
  refine (pay_apply (iblk3 V c 0 t) (iblk3 V c 1 t) p q).trans ?_
  unfold Cert.MatSpec.mm128
  refine Finset.sum_congr rfl fun k _ => ?_
  have h0 : ((((cfg3.win 2).blk t).view.emb (ix2 (n0 := 5000) (n1 := 128) p q)) 0).val = t.val * 5000 + p.val := by
    show win3_2.index t 0 * 5000 + 1 * p.val = _; rw [e20]; omega
  have h1 : ((((cfg3.win 2).blk t).view.emb (ix2 (n0 := 5000) (n1 := 128) p q)) 1).val = q.val := by
    show win3_2.index t 1 * 128 + 1 * q.val = _; rw [e21]; omega
  exact congrArg₂ (· * ·)
    (feat_apply V c t p k (ix2 (n0 := 100000) (n1 := 128) ((((cfg3.win 2).blk t).view.emb (ix2 (n0 := 5000) (n1 := 128) p q)) 0) k) h0 rfl)
    (wt_apply V c t k q (ix2 (n0 := 128) (n1 := 128) k ((((cfg3.win 2).blk t).view.emb (ix2 (n0 := 5000) (n1 := 128) p q)) 1)) rfl h1)

/-- Every entry of the result lies in some point's block: row r in block r / 5000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  have hlt : (i 0).val / 5000 < cfg3.N := by rw [hN]; omega
  obtain ⟨-, -, -, -, e20, e21⟩ := idx_facts ⟨(i 0).val / 5000, hlt⟩
  refine ⟨⟨(i 0).val / 5000, hlt⟩, flush3_2 _, ?_⟩
  show i ∈ ((View.whole main_v54).slice (win3_2.rect ⟨(i 0).val / 5000, hlt⟩)).set
  rw [View.set_slice_whole, Rect.mem_set_unit]
  intro a
  match a with
  | ⟨0, _⟩ =>
    show win3_2.index ⟨(i 0).val / 5000, hlt⟩ 0 * 5000 ≤ (i 0).val ∧ (i 0).val < win3_2.index ⟨(i 0).val / 5000, hlt⟩ 0 * 5000 + 5000
    rw [e20]; show (i 0).val / 5000 * 5000 ≤ (i 0).val ∧ (i 0).val < (i 0).val / 5000 * 5000 + 5000; omega
  | ⟨1, _⟩ =>
    show win3_2.index ⟨(i 0).val / 5000, hlt⟩ 1 * 128 ≤ (i 1).val ∧ (i 1).val < win3_2.index ⟨(i 0).val / 5000, hlt⟩ 1 * 128 + 128
    rw [e21]; omega

/-- So the result array ends as the whole product of the arrays the launch finds. -/
theorem out_eq (c : Dev nD) :
    (dat3 (F := Ideal) V c).arrAt 2 cfg3.N = Cert.MatSpec.mm128 (V c (Pipeline.arrRef spec3 0)) (V c (Pipeline.arrRef spec3 1)) :=
  (dat3 V c).arrAt_eq_of_cover 2 _ (fun t _ => flushed_eq V c t) cover

end Cert.KernelIdeal.Region3

end
-- ==== Proof.Region4.lean ====
import proofs.«403154_j48490180772546_4_alg».proof.Proof.Gen.KernelIdeal.Frame
import proofs.«403154_j48490180772546_4_alg».proof.Proof.MatSpec
import Idealize.ShloMosaic.Lib.Pipeline.Value
import Idealize.ShloMosaic.Lib.ValueIdx
import Idealize.ShloMosaic.PureOps.Ideal.Laws

/-!
# The fifth launch computes the fifth layer's dense step

The launch walks the 100000 node rows in 20 blocks of 5000. At each point it loads a block of 5000 rows of the hidden
features (all 128 columns) and the whole 128 × 128 weight matrix, multiplies them on the matrix unit into a zero
accumulator, and stores the 5000 × 128 product, which is written back to the same rows of the result. An entry of a
block's product is the sum over the 128 contraction positions of a feature of that row times a weight of that column;
the blocks' rows partition the node rows; so the result array ends as the whole product.
-/

set_option maxRecDepth 16384

noncomputable section

namespace Cert.KernelIdeal.Region4

open Cert.KernelIdeal Cert.KernelIdeal.Gen
open Idealize.ShloMosaic Idealize.ShloMosaic.TcCoe Idealize.SL.Sem Idealize.ShloMosaic.ValueIdx
open Idealize.ShloMosaic.Pipeline (Dat)

/-! ## The matrix unit's product at an entry -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's one payload at entry (p, q): the sum over the contraction position of the loaded features' row p times the
    loaded weights' column q (the shape cast in front of the product is between equal shapes: the identity). -/
theorem pay_apply (x0 : Vec Ideal S5000x128 .f32) (x1 : Vec Ideal S128x128 .f32) (p : Fin 5000) (q : Fin 128) :
    k4_pay1 (F := Ideal) x0 x1 (ix2 (n0 := 5000) (n1 := 128) p q)
      = ∑ k : Fin 128, x0 (ix2 (n0 := 5000) (n1 := 128) p k) * x1 (ix2 (n0 := 128) (n1 := 128) k q) := by
  unfold k4_pay1
  rw [shapeCast_self]
  refine (Ideal.matmul_constant_zero_apply dot_S5000x128_S128x128_S5000x128_1_0_0_1_n_n (some .fp32) x0 x1 (ix2 (n0 := 5000) (n1 := 128) p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 (n0 := 5000) (n1 := 128) p q) ((contrEquiv1 dot_S5000x128_S128x128_S5000x128_1_0_0_1_n_n 128 rfl rfl).symm k)
      = ix2 (n0 := 5000) (n1 := 128) p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 (n0 := 5000) (n1 := 128) p q) ((contrEquiv1 dot_S5000x128_S128x128_S5000x128_1_0_0_1_n_n 128 rfl rfl).symm k)
      = ix2 (n0 := 128) (n1 := 128) k q := funext fun a => Fin.ext (by
    match a with
    | ⟨0, _⟩ => exact (rhs_0 _ _).trans hk
    | ⟨1, _⟩ => exact rhs_1 _ _)
  rw [el, er]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where the three windows' blocks sit at point `t`: the feature block and the result block at row block `t`, the
    weights whole. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The feature block at point `t`, entry (p, k), is the feature array's entry (5000 t + p, k). -/
theorem feat_apply (c : Dev nD) (t : Fin cfg4.N) (p : Fin 5000) (k : Fin 128) (i : (⟨2, ![100000, 128]⟩ : Shape).Idx)
    (hi0 : (i 0).val = t.val * 5000 + p.val) (hi1 : (i 1).val = k.val) :
    (iblk4 V c 0 t : Vec Ideal S5000x128 .f32) (ix2 (n0 := 5000) (n1 := 128) p k)
      = (V c (Pipeline.arrRef spec4 0) : (⟨2, ![100000, 128]⟩ : Shape).Idx → EReal) i := by
  obtain ⟨e00, e01, -⟩ := idx_facts t
  unfold iblk4
  rw [View.read_apply]
  refine congrArg (V c (Pipeline.arrRef spec4 0)) ?_
  funext a
  apply Fin.ext
  match a with
  | ⟨0, _⟩ => show win4_0.index t 0 * 5000 + 1 * p.val = (i 0).val; rw [e00, hi0]; omega
  | ⟨1, _⟩ => show win4_0.index t 1 * 128 + 1 * k.val = (i 1).val; rw [e01, hi1]; omega

/-- The weight block at every point is the whole weight matrix. -/
theorem wt_apply (c : Dev nD) (t : Fin cfg4.N) (k : Fin 128) (q : Fin 128) (i : (⟨2, ![128, 128]⟩ : Shape).Idx)
    (hi0 : (i 0).val = k.val) (hi1 : (i 1).val = q.val) :
    (iblk4 V c 1 t : Vec Ideal S128x128 .f32) (ix2 (n0 := 128) (n1 := 128) k q)
      = (V c (Pipeline.arrRef spec4 1) : (⟨2, ![128, 128]⟩ : Shape).Idx → EReal) i := by
  obtain ⟨-, -, e10, e11, -⟩ := idx_facts t
  unfold iblk4
  rw [View.read_apply]
  refine congrArg (V c (Pipeline.arrRef spec4 1)) ?_
  funext a
  apply Fin.ext
  match a with
  | ⟨0, _⟩ => show win4_1.index t 0 * 128 + 1 * k.val = (i 0).val; rw [e10, hi0]; omega
  | ⟨1, _⟩ => show win4_1.index t 1 * 128 + 1 * q.val = (i 1).val; rw [e11, hi1]; omega

/-- What point `t` writes back is block `t` of the whole product of the arrays the launch finds. -/
theorem flushed_eq (c : Dev nD) (t : Fin cfg4.N) :
    (dat4 (F := Ideal) V c).flushed 2 t = ((cfg4.win 2).blk t).view.read (Elt Ideal)
      (Cert.MatSpec.mm128 (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨-, -, -, -, e20, e21⟩ := idx_facts t
  funext j
  obtain ⟨p, q, rfl⟩ : ∃ (p : Fin 5000) (q : Fin 128), j = ix2 (n0 := 5000) (n1 := 128) p q := ⟨j 0, j 1, eq_ix2 j⟩
  show k4_pay1 (F := Ideal) (iblk4 V c 0 t) (iblk4 V c 1 t) (ix2 (n0 := 5000) (n1 := 128) p q)
    = Cert.MatSpec.mm128 (V c (Pipeline.arrRef spec4 0)) (V c (Pipeline.arrRef spec4 1)) (((cfg4.win 2).blk t).view.emb (ix2 (n0 := 5000) (n1 := 128) p q))
  refine (pay_apply (iblk4 V c 0 t) (iblk4 V c 1 t) p q).trans ?_
  unfold Cert.MatSpec.mm128
  refine Finset.sum_congr rfl fun k _ => ?_
  have h0 : ((((cfg4.win 2).blk t).view.emb (ix2 (n0 := 5000) (n1 := 128) p q)) 0).val = t.val * 5000 + p.val := by
    show win4_2.index t 0 * 5000 + 1 * p.val = _; rw [e20]; omega
  have h1 : ((((cfg4.win 2).blk t).view.emb (ix2 (n0 := 5000) (n1 := 128) p q)) 1).val = q.val := by
    show win4_2.index t 1 * 128 + 1 * q.val = _; rw [e21]; omega
  exact congrArg₂ (· * ·)
    (feat_apply V c t p k (ix2 (n0 := 100000) (n1 := 128) ((((cfg4.win 2).blk t).view.emb (ix2 (n0 := 5000) (n1 := 128) p q)) 0) k) h0 rfl)
    (wt_apply V c t k q (ix2 (n0 := 128) (n1 := 128) k ((((cfg4.win 2).blk t).view.emb (ix2 (n0 := 5000) (n1 := 128) p q)) 1)) rfl h1)

/-- Every entry of the result lies in some point's block: row r in block r / 5000. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  have hlt : (i 0).val / 5000 < cfg4.N := by rw [hN]; omega
  obtain ⟨-, -, -, -, e20, e21⟩ := idx_facts ⟨(i 0).val / 5000, hlt⟩
  refine ⟨⟨(i 0).val / 5000, hlt⟩, flush4_2 _, ?_⟩
  show i ∈ ((View.whole main_v72).slice (win4_2.rect ⟨(i 0).val / 5000, hlt⟩)).set
  rw [View.set_slice_whole, Rect.mem_set_unit]
  intro a
  match a with
  | ⟨0, _⟩ =>
    show win4_2.index ⟨(i 0).val / 5000, hlt⟩ 0 * 5000 ≤ (i 0).val ∧ (i 0).val < win4_2.index ⟨(i 0).val / 5000, hlt⟩ 0 * 5000 + 5000
    rw [e20]; show (i 0).val / 5000 * 5000 ≤ (i 0).val ∧ (i 0).val < (i 0).val / 5000 * 5000 + 5000; omega
  | ⟨1, _⟩ =>
    show win4_2.index ⟨(i 0).val / 5000, hlt⟩ 1 * 128 ≤ (i 1).val ∧ (i 1).val < win4_2.index ⟨(i 0).val / 5000, hlt⟩ 1 * 128 + 128
    rw [e21]; omega

/-- So the result array ends as the whole product of the arrays the launch finds. -/
theorem out_eq (c : Dev nD) :
    (dat4 (F := Ideal) V c).arrAt 2 cfg4.N = Cert.MatSpec.mm128 (V c (Pipeline.arrRef spec4 0)) (V c (Pipeline.arrRef spec4 1)) :=
  (dat4 V c).arrAt_eq_of_cover 2 _ (fun t _ => flushed_eq V c t) cover

end Cert.KernelIdeal.Region4

end
-- ==== Proof.RefDot.lean ====
import proofs.«403154_j48490180772546_4_alg».proof.Proof.Gen.ReferenceIdeal.Read
import proofs.«403154_j48490180772546_4_alg».proof.Proof.MatSpec

/-!
# The reference's matrix products are the dense step

The reference computes each layer's dense step by one `dot_general` that contracts the features' second axis with the
weights' first. Read at an entry it is the sum over the contraction position of a feature times a weight, which is the
dense step's definition; the only work is to name the two operand positions by their coordinates.
-/

noncomputable section

namespace Cert.ReferenceIdeal.RefDot

open Cert.ReferenceIdeal Cert.ReferenceIdeal.Read Idealize.ShloMosaic Idealize.ShloMosaic.ValueIdx

/-- The first layer's product, 256 features contracted. -/
theorem dot256_eq (x : (⟨S100000x256, .f32⟩ : BufTy).Contents (Elt Ideal)) (w : (⟨S256x128, .f32⟩ : BufTy).Contents (Elt Ideal)) :
    Host.dotGeneral (F := Ideal) (φ₁ := .f32) (φ₂ := .f32) dot_S100000x256_S256x128_S100000x128_1_0_0_1_n_n none x w = Cert.MatSpec.mm256 x w := by
  funext i
  refine (val_main_v0_apply x w i).trans ?_
  unfold Cert.MatSpec.mm256
  refine Finset.sum_congr rfl fun k _ => ?_
  have el : lidx_main_v0 i k = ix2 (n0 := 100000) (n1 := 256) (i 0) k :=
    funext fun a => Fin.ext (by match a with | ⟨0, _⟩ => rfl | ⟨1, _⟩ => rfl)
  have er : ridx_main_v0 i k = ix2 (n0 := 256) (n1 := 128) k (i 1) :=
    funext fun a => Fin.ext (by match a with | ⟨0, _⟩ => rfl | ⟨1, _⟩ => rfl)
  rw [el, er]

/-- The later layers' product, 128 hidden features contracted: the host's `dot_general` at an entry is the sum over its
    one contraction axis, whose position is re-indexed by a number below 128; on the features the product's row and
    the contraction position are the two coordinates, on the weights the contraction position and the product's column. -/
theorem dot128_eq (x : (⟨S100000x128, .f32⟩ : BufTy).Contents (Elt Ideal)) (w : (⟨S128x128, .f32⟩ : BufTy).Contents (Elt Ideal)) :
    Host.dotGeneral (F := Ideal) (φ₁ := .f32) (φ₂ := .f32) dot_S100000x128_S128x128_S100000x128_1_0_0_1_n_n none x w = Cert.MatSpec.mm128 x w := by
  funext i
  simp only [Host.dotGeneral]
  rw [Ideal.dotGeneral_apply, ← Equiv.sum_comp (contrEquiv1 dot_S100000x128_S128x128_S100000x128_1_0_0_1_n_n 128 rfl rfl).symm]
  unfold Cert.MatSpec.mm128
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx i ((contrEquiv1 dot_S100000x128_S128x128_S100000x128_1_0_0_1_n_n 128 rfl rfl).symm k)
      = ix2 (n0 := 100000) (n1 := 128) (i 0) k := funext fun a => Fin.ext (by
    match a with
    | ⟨0, _⟩ => exact lhs_main_v18_0 _ _
    | ⟨1, _⟩ => exact (lhs_main_v18_1 _ _).trans hk)
  have er : dot_S100000x128_S128x128_S100000x128_1_0_0_1_n_n.rhsIdx i ((contrEquiv1 dot_S100000x128_S128x128_S100000x128_1_0_0_1_n_n 128 rfl rfl).symm k)
      = ix2 (n0 := 128) (n1 := 128) k (i 1) := funext fun a => Fin.ext (by
    match a with
    | ⟨0, _⟩ => exact (rhs_main_v18_0 _ _).trans hk
    | ⟨1, _⟩ => exact rhs_main_v18_1 _ _)
  rw [el, er]

end Cert.ReferenceIdeal.RefDot

end
-- ==== Proof.LibAgree.lean ====
import Idealize.ShloMosaic.Lib.StableHlo.Run

/-!
# Two lines of host operations stepped in lockstep

Two programs over two signatures run the same operations on buffers paired by position. `Agree P V₁ V₂` says the two
valuations hold the same contents at every pair of the list `P`; the contents of a pair are compared heterogeneously,
the two signatures giving the paired buffers types that are equal only once their tables are unfolded. `Sim P ops ops' Q`
says: from valuations agreeing on `P`, after `ops` on one side and `ops'` on the other the valuations agree on `Q`.
One rule per builder steps an operation on each side and adds the pair of result buffers; every buffer being written
once, a pair already listed is never written again (the freshness hypotheses).
-/

namespace Idealize.ShloMosaic.StableHlo

variable {τ : Topo} {sig₁ sig₂ : RefSig} {Val : EltTy → Type}

/-! ## Heterogeneous congruence -/

/-- Heterogeneously equal functions at heterogeneously equal arguments, the domains and the codomains being equal types. -/
theorem heq_app {A A' B B' : Type} (hA : A = A') (hB : B = B') {f : A → B} {f' : A' → B'} (hf : HEq f f')
    {a : A} {a' : A'} (ha : HEq a a') : HEq (f a) (f' a') := by
  subst hA hB; cases hf; cases ha; rfl

/-- Dependent families that agree pointwise, over pointwise equal types. -/
theorem heq_pi {ι : Type} {A A' : ι → Type} (hA : ∀ k, A k = A' k) {g : (k : ι) → A k} {g' : (k : ι) → A' k}
    (h : ∀ k, HEq (g k) (g' k)) : HEq g g' := by
  obtain rfl : A = A' := funext hA
  exact heq_of_eq (funext fun k => eq_of_heq (h k))

/-- Functions of a dependent family, likewise. -/
theorem heq_app_pi {ι : Type} {A A' : ι → Type} {B B' : Type} (hA : ∀ k, A k = A' k) (hB : B = B')
    {f : ((k : ι) → A k) → B} {f' : ((k : ι) → A' k) → B'} (hf : HEq f f')
    {g : (k : ι) → A k} {g' : (k : ι) → A' k} (h : ∀ k, HEq (g k) (g' k)) : HEq (f g) (f' g') := by
  obtain rfl : A = A' := funext hA
  subst hB; cases hf
  exact heq_of_eq (congrArg f (funext fun k => eq_of_heq (h k)))

/-- A reshape of heterogeneously equal contents, the buffer types being equal. -/
theorem heq_reshape {T₁ T₁' T₂ T₂' : BufTy} (h₁ : T₁ = T₁') (h₂ : T₂ = T₂') (he : T₁.elt = T₂.elt) (he' : T₁'.elt = T₂'.elt)
    (hn : T₁.shape.ShapeCasts T₂.shape) (hn' : T₁'.shape.ShapeCasts T₂'.shape)
    {a : T₁.Contents Val} {a' : T₁'.Contents Val} (ha : HEq a a') :
    HEq (fun i => he ▸ shapeCast T₂.shape a hn i : T₂.Contents Val) (fun i => he' ▸ shapeCast T₂'.shape a' hn' i : T₂'.Contents Val) := by
  subst h₁ h₂; cases ha; rfl

/-! ## Agreement on a list of pairs -/

/-- The two valuations hold the same contents at every pair of `P`. -/
def Agree (P : List (Ref sig₁ .tc × Ref sig₂ .tc)) (V₁ : Valuation τ sig₁ Val) (V₂ : Valuation τ sig₂ Val) : Prop :=
  ∀ p ∈ P, HEq (V₁ (Proc.devRef .tc p.1)) (V₂ (Proc.devRef .tc p.2))

namespace Agree

variable {P Q : List (Ref sig₁ .tc × Ref sig₂ .tc)} {V₁ : Valuation τ sig₁ Val} {V₂ : Valuation τ sig₂ Val}

theorem nil : Agree (τ := τ) (Val := Val) ([] : List (Ref sig₁ .tc × Ref sig₂ .tc)) V₁ V₂ := fun _ h => absurd h List.not_mem_nil

theorem cons {a : Ref sig₁ .tc} {a' : Ref sig₂ .tc} (h : HEq (V₁ (Proc.devRef .tc a)) (V₂ (Proc.devRef .tc a')))
    (t : Agree P V₁ V₂) : Agree ((a, a') :: P) V₁ V₂ := fun p hp => by
  rcases List.mem_cons.mp hp with rfl | hp
  · exact h
  · exact t p hp

/-- The contents at a listed pair. -/
theorem get (h : Agree P V₁ V₂) {a : Ref sig₁ .tc} {a' : Ref sig₂ .tc} (hin : (a, a') ∈ P) :
    HEq (V₁ (Proc.devRef .tc a)) (V₂ (Proc.devRef .tc a')) := h (a, a') hin

/-- Pairs may be dropped. -/
theorem mono (h : Agree P V₁ V₂) (hQ : Q ⊆ P) : Agree Q V₁ V₂ := fun p hp => h p (hQ hp)

/-- An operation on each side, each writing one buffer that no listed pair names, the two results being the same: the
    valuations after them agree on the list and on the pair of result buffers. -/
theorem write (h : Agree P V₁ V₂) {op : HloOp τ sig₁ Val} {op' : HloOp τ sig₂ Val} {y : Ref sig₁ .tc} {y' : Ref sig₂ .tc}
    (hw : op.writes = {Proc.devRef .tc y}) (hw' : op'.writes = {Proc.devRef .tc y'})
    (hy : y ∉ P.map Prod.fst) (hy' : y' ∉ P.map Prod.snd)
    (hres : HEq (op.result V₁ (Proc.devRef .tc y)) (op'.result V₂ (Proc.devRef .tc y'))) :
    Agree ((y, y') :: P) (op.result V₁) (op'.result V₂) := fun p hp => by
  rcases List.mem_cons.mp hp with rfl | hp
  · exact hres
  · have h1 : Proc.devRef .tc p.1 ∉ op.writes := by
      rw [hw, Finset.mem_singleton]
      exact devRef_ne_of_ne fun e => hy (e ▸ List.mem_map_of_mem (f := Prod.fst) hp)
    have h2 : Proc.devRef .tc p.2 ∉ op'.writes := by
      rw [hw', Finset.mem_singleton]
      exact devRef_ne_of_ne fun e => hy' (e ▸ List.mem_map_of_mem (f := Prod.snd) hp)
    rw [op.result_of_not_mem V₁ h1, op'.result_of_not_mem V₂ h2]
    exact h p hp

/-- An operation on the first side only, writing one buffer that no listed pair names. -/
theorem writeL (h : Agree P V₁ V₂) {op : HloOp τ sig₁ Val} {y : Ref sig₁ .tc}
    (hw : op.writes = {Proc.devRef .tc y}) (hy : y ∉ P.map Prod.fst) : Agree P (op.result V₁) V₂ := fun p hp => by
  have h1 : Proc.devRef .tc p.1 ∉ op.writes := by
    rw [hw, Finset.mem_singleton]
    exact devRef_ne_of_ne fun e => hy (e ▸ List.mem_map_of_mem (f := Prod.fst) hp)
  rw [op.result_of_not_mem V₁ h1]
  exact h p hp

/-- An operation on the second side only. -/
theorem writeR (h : Agree P V₁ V₂) {op' : HloOp τ sig₂ Val} {y' : Ref sig₂ .tc}
    (hw' : op'.writes = {Proc.devRef .tc y'}) (hy' : y' ∉ P.map Prod.snd) : Agree P V₁ (op'.result V₂) := fun p hp => by
  have h2 : Proc.devRef .tc p.2 ∉ op'.writes := by
    rw [hw', Finset.mem_singleton]
    exact devRef_ne_of_ne fun e => hy' (e ▸ List.mem_map_of_mem (f := Prod.snd) hp)
  rw [op'.result_of_not_mem V₂ h2]
  exact h p hp

end Agree

/-! ## Two lines in lockstep -/

/-- From valuations agreeing on `P`, after `ops` on one side and `ops'` on the other the valuations agree on `Q`. -/
def Sim (P : List (Ref sig₁ .tc × Ref sig₂ .tc)) (ops : List (HloOp τ sig₁ Val)) (ops' : List (HloOp τ sig₂ Val))
    (Q : List (Ref sig₁ .tc × Ref sig₂ .tc)) : Prop :=
  ∀ (V₁ : Valuation τ sig₁ Val) (V₂ : Valuation τ sig₂ Val), Agree P V₁ V₂ → Agree Q (after ops V₁) (after ops' V₂)

namespace Sim

variable {P P' Q : List (Ref sig₁ .tc × Ref sig₂ .tc)} {ops l₁ l₂ : List (HloOp τ sig₁ Val)} {ops' l₁' l₂' : List (HloOp τ sig₂ Val)}

/-- Both lines done: keep the pairs wanted. -/
theorem done (hQ : Q ⊆ P) : Sim (τ := τ) (Val := Val) P [] [] Q := fun _ _ h => h.mono hQ

/-- One operation on each side, then the rest. -/
theorem step {op : HloOp τ sig₁ Val} {op' : HloOp τ sig₂ Val}
    (hstep : ∀ (V₁ : Valuation τ sig₁ Val) (V₂ : Valuation τ sig₂ Val), Agree P V₁ V₂ → Agree P' (op.result V₁) (op'.result V₂))
    (k : Sim P' ops ops' Q) : Sim P (op :: ops) (op' :: ops') Q := fun V₁ V₂ h => k _ _ (hstep V₁ V₂ h)

/-- An operation on the first side with no counterpart, writing a buffer no listed pair names. -/
theorem skipL {op : HloOp τ sig₁ Val} {y : Ref sig₁ .tc} (hw : op.writes = {Proc.devRef .tc y}) (hy : y ∉ P.map Prod.fst)
    (k : Sim P ops ops' Q) : Sim P (op :: ops) ops' Q := fun V₁ V₂ h => k _ _ (h.writeL hw hy)

/-- An operation on the second side with no counterpart. -/
theorem skipR {op' : HloOp τ sig₂ Val} {y' : Ref sig₂ .tc} (hw' : op'.writes = {Proc.devRef .tc y'}) (hy' : y' ∉ P.map Prod.snd)
    (k : Sim P ops ops' Q) : Sim P ops (op' :: ops') Q := fun V₁ V₂ h => k _ _ (h.writeR hw' hy')

private theorem after_append' {sig : RefSig} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append' l₁ l₂]

/-- Two stretches in a row. -/
theorem append (h₁ : Sim P l₁ l₁' P') (h₂ : Sim P' l₂ l₂' Q) : Sim P (l₁ ++ l₂) (l₁' ++ l₂') Q := fun V₁ V₂ h => by
  rw [after_append', after_append']
  exact h₂ _ _ (h₁ _ _ h)

/-- A first stretch, then the flattening of the others. -/
theorem flatten_cons {L : List (List (HloOp τ sig₁ Val))} {L' : List (List (HloOp τ sig₂ Val))}
    (h₁ : Sim P l₁ l₁' P') (h₂ : Sim P' L.flatten L'.flatten Q) : Sim P (l₁ :: L).flatten (l₁' :: L').flatten Q := by
  rw [List.flatten_cons, List.flatten_cons]
  exact h₁.append h₂

/-- The pairs kept may be dropped afterwards. -/
theorem mono {Q' : List (Ref sig₁ .tc × Ref sig₂ .tc)} (h : Sim P ops ops' Q) (hQ : Q' ⊆ Q) : Sim P ops ops' Q' :=
  fun V₁ V₂ hP => (h V₁ V₂ hP).mono hQ

/-- What the two lines leave at a pair kept. -/
theorem get (h : Sim P ops ops' Q) {V₁ : Valuation τ sig₁ Val} {V₂ : Valuation τ sig₂ Val} (hP : Agree P V₁ V₂)
    {a : Ref sig₁ .tc} {a' : Ref sig₂ .tc} (hin : (a, a') ∈ Q) :
    HEq (after ops V₁ (Proc.devRef .tc a)) (after ops' V₂ (Proc.devRef .tc a')) := (h V₁ V₂ hP).get hin

/-! ### One rule per builder -/

section Builders

variable {x a b c y : Ref sig₁ .tc} {x' a' b' c' y' : Ref sig₂ .tc}

/-- `%y = ‹op›` on both sides. -/
theorem nullary {v : y.ty.Contents Val} {v' : y'.ty.Contents Val} {hy hy'}
    (hv : HEq v v') (hfy : y ∉ P.map Prod.fst) (hfy' : y' ∉ P.map Prod.snd)
    (k : Sim ((y, y') :: P) ops ops' Q) :
    Sim P (StableHlo.nullary (τ := τ) y v hy :: ops) (StableHlo.nullary (τ := τ) y' v' hy' :: ops') Q :=
  step (fun V₁ V₂ h => h.write rfl rfl hfy hfy' (by rw [nullary_result, nullary_result]; exact hv)) k

/-- `%y = ‹op› %x` on both sides. -/
theorem unary {f : x.ty.Contents Val → y.ty.Contents Val} {f' : x'.ty.Contents Val → y'.ty.Contents Val} {hx hy hx' hy'}
    (hin : (x, x') ∈ P) (htx : x.ty = x'.ty) (hty : y.ty = y'.ty) (hf : HEq f f')
    (hfy : y ∉ P.map Prod.fst) (hfy' : y' ∉ P.map Prod.snd)
    (k : Sim ((y, y') :: P) ops ops' Q) :
    Sim P (StableHlo.unary (τ := τ) x y f hx hy :: ops) (StableHlo.unary (τ := τ) x' y' f' hx' hy' :: ops') Q :=
  step (fun V₁ V₂ h => h.write rfl rfl hfy hfy' (by
    rw [unary_result, unary_result]
    exact heq_app (congrArg (BufTy.Contents Val) htx) (congrArg (BufTy.Contents Val) hty) hf (h.get hin))) k

/-- `%y = ‹op› %a, %b` on both sides. -/
theorem binary {f : a.ty.Contents Val → b.ty.Contents Val → y.ty.Contents Val}
    {f' : a'.ty.Contents Val → b'.ty.Contents Val → y'.ty.Contents Val} {ha hb hy ha' hb' hy'}
    (hina : (a, a') ∈ P) (hinb : (b, b') ∈ P) (hta : a.ty = a'.ty) (htb : b.ty = b'.ty) (hty : y.ty = y'.ty) (hf : HEq f f')
    (hfy : y ∉ P.map Prod.fst) (hfy' : y' ∉ P.map Prod.snd)
    (k : Sim ((y, y') :: P) ops ops' Q) :
    Sim P (StableHlo.binary (τ := τ) a b y f ha hb hy :: ops) (StableHlo.binary (τ := τ) a' b' y' f' ha' hb' hy' :: ops') Q :=
  step (fun V₁ V₂ h => h.write rfl rfl hfy hfy' (by
    rw [binary_result, binary_result]
    have hB := congrArg (BufTy.Contents Val) htb
    have hY := congrArg (BufTy.Contents Val) hty
    exact heq_app hB hY
      (heq_app (congrArg (BufTy.Contents Val) hta) (by rw [hB, hY]) hf (h.get hina)) (h.get hinb))) k

/-- `%y = ‹op› %c, %a, %b` on both sides. -/
theorem ternary {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    (hinc : (c, c') ∈ P) (hina : (a, a') ∈ P) (hinb : (b, b') ∈ P)
    (htc : c.ty = c'.ty) (hta : a.ty = a'.ty) (htb : b.ty = b'.ty) (hty : y.ty = y'.ty) (hf : HEq f f')
    (hfy : y ∉ P.map Prod.fst) (hfy' : y' ∉ P.map Prod.snd)
    (k : Sim ((y, y') :: P) ops ops' Q) :
    Sim P (StableHlo.ternary (τ := τ) c a b y f hc ha hb hy :: ops) (StableHlo.ternary (τ := τ) c' a' b' y' f' hc' ha' hb' hy' :: ops') Q :=
  step (fun V₁ V₂ h => h.write rfl rfl hfy hfy' (by
    rw [ternary_result, ternary_result]
    have hA := congrArg (BufTy.Contents Val) hta
    have hB := congrArg (BufTy.Contents Val) htb
    have hY := congrArg (BufTy.Contents Val) hty
    exact heq_app hB hY
      (heq_app hA (by rw [hB, hY])
        (heq_app (congrArg (BufTy.Contents Val) htc) (by rw [hA, hB, hY]) hf (h.get hinc)) (h.get hina)) (h.get hinb))) k

/-- `%y = ‹op› %x₀, …, %xₙ₋₁` on both sides. -/
theorem nary {n : Nat} {xs : Fin n → Ref sig₁ .tc} {xs' : Fin n → Ref sig₂ .tc}
    {f : ((k : Fin n) → (xs k).ty.Contents Val) → y.ty.Contents Val}
    {f' : ((k : Fin n) → (xs' k).ty.Contents Val) → y'.ty.Contents Val} {hxs hy hxs' hy'}
    (hin : ∀ k, (xs k, xs' k) ∈ P) (htx : ∀ k, (xs k).ty = (xs' k).ty) (hty : y.ty = y'.ty) (hf : HEq f f')
    (hfy : y ∉ P.map Prod.fst) (hfy' : y' ∉ P.map Prod.snd)
    (k : Sim ((y, y') :: P) ops ops' Q) :
    Sim P (StableHlo.nary (τ := τ) xs y f hxs hy :: ops) (StableHlo.nary (τ := τ) xs' y' f' hxs' hy' :: ops') Q :=
  step (fun V₁ V₂ h => h.write rfl rfl hfy hfy' (by
    rw [nary_result, nary_result]
    exact heq_app_pi (fun k => congrArg (BufTy.Contents Val) (htx k)) (congrArg (BufTy.Contents Val) hty) hf
      (fun k => h.get (hin k)))) k

/-- `%y = ‹op› %x₀, %x₁, %x₂, %x₃` on both sides, the four operands a literal family: the two functions are compared at
    operands given one by one. -/
theorem nary4 {x0 x1 x2 x3 : Ref sig₁ .tc} {x0' x1' x2' x3' : Ref sig₂ .tc}
    {f : ((k : Fin 4) → ((![x0, x1, x2, x3] : Fin 4 → Ref sig₁ .tc) k).ty.Contents Val) → y.ty.Contents Val}
    {f' : ((k : Fin 4) → ((![x0', x1', x2', x3'] : Fin 4 → Ref sig₂ .tc) k).ty.Contents Val) → y'.ty.Contents Val} {hxs hy hxs' hy'}
    (hin0 : (x0, x0') ∈ P) (hin1 : (x1, x1') ∈ P) (hin2 : (x2, x2') ∈ P) (hin3 : (x3, x3') ∈ P)
    (hf : ∀ (u0 : x0.ty.Contents Val) (u0' : x0'.ty.Contents Val) (u1 : x1.ty.Contents Val) (u1' : x1'.ty.Contents Val)
        (u2 : x2.ty.Contents Val) (u2' : x2'.ty.Contents Val) (u3 : x3.ty.Contents Val) (u3' : x3'.ty.Contents Val),
        HEq u0 u0' → HEq u1 u1' → HEq u2 u2' → HEq u3 u3' →
        HEq (f (Fin.cons u0 (Fin.cons u1 (Fin.cons u2 (Fin.cons u3 (fun i => i.elim0))))))
          (f' (Fin.cons u0' (Fin.cons u1' (Fin.cons u2' (Fin.cons u3' (fun i => i.elim0)))))))
    (hfy : y ∉ P.map Prod.fst) (hfy' : y' ∉ P.map Prod.snd)
    (k : Sim ((y, y') :: P) ops ops' Q) :
    Sim P (StableHlo.nary (τ := τ) ![x0, x1, x2, x3] y f hxs hy :: ops) (StableHlo.nary (τ := τ) ![x0', x1', x2', x3'] y' f' hxs' hy' :: ops') Q :=
  step (fun V₁ V₂ h => h.write rfl rfl hfy hfy' (by
    rw [nary4_result, nary4_result]
    exact hf _ _ _ _ _ _ _ _ (h.get hin0) (h.get hin1) (h.get hin2) (h.get hin3))) k

/-- `%y = stablehlo.reshape %x` on both sides. -/
theorem reshape {he hn hx hy he' hn' hx' hy'}
    (hin : (x, x') ∈ P) (htx : x.ty = x'.ty) (hty : y.ty = y'.ty)
    (hfy : y ∉ P.map Prod.fst) (hfy' : y' ∉ P.map Prod.snd)
    (k : Sim ((y, y') :: P) ops ops' Q) :
    Sim P (StableHlo.reshape (τ := τ) (Val := Val) x y he hn hx hy :: ops) (StableHlo.reshape (τ := τ) (Val := Val) x' y' he' hn' hx' hy' :: ops') Q :=
  step (fun V₁ V₂ h => h.write rfl rfl hfy hfy' (by
    rw [reshape_result, reshape_result]
    exact heq_reshape htx hty he he' hn hn' (h.get hin))) k

end Builders

end Sim

end Idealize.ShloMosaic.StableHlo
-- ==== Proof.LibAgreeLaunch.lean ====
import proofs.«403154_j48490180772546_4_alg».proof.Proof.LibAgree

/-!
# A kernel launch inside two lines stepped in lockstep

One of two programs replaces an operation of the other by something that is not a host operation: a kernel launch,
which writes one buffer and leaves every other one as it was. The agreement of the two valuations then steps as for a
pair of operations: the pair of result buffers is added, the pairs already listed are kept.
-/

namespace Idealize.ShloMosaic.StableHlo

variable {τ : Topo} {sig₁ sig₂ : RefSig} {Val : EltTy → Type}

namespace Agree

variable {P : List (Ref sig₁ .tc × Ref sig₂ .tc)} {V₁ V₁' : Valuation τ sig₁ Val} {V₂ : Valuation τ sig₂ Val}

/-- The first side steps to a valuation that differs from the old one at the buffer `y` only; the second side steps by
    an operation that writes `y'`; no listed pair names `y` or `y'`, and the two new contents are the same: the
    valuations agree on the list and on the new pair. -/
theorem launch (h : Agree P V₁ V₂) {op' : HloOp τ sig₂ Val} {y : Ref sig₁ .tc} {y' : Ref sig₂ .tc}
    (hkeep : ∀ b : Ref sig₁ .tc, b ≠ y → V₁' (Proc.devRef .tc b) = V₁ (Proc.devRef .tc b))
    (hw' : op'.writes = {Proc.devRef .tc y'})
    (hy : y ∉ P.map Prod.fst) (hy' : y' ∉ P.map Prod.snd)
    (hres : HEq (V₁' (Proc.devRef .tc y)) (op'.result V₂ (Proc.devRef .tc y'))) :
    Agree ((y, y') :: P) V₁' (op'.result V₂) := fun p hp => by
  rcases List.mem_cons.mp hp with rfl | hp
  · exact hres
  · have h1 : p.1 ≠ y := fun e => hy (e ▸ List.mem_map_of_mem (f := Prod.fst) hp)
    have h2 : Proc.devRef .tc p.2 ∉ op'.writes := by
      rw [hw', Finset.mem_singleton]
      exact devRef_ne_of_ne fun e => hy' (e ▸ List.mem_map_of_mem (f := Prod.snd) hp)
    rw [hkeep p.1 h1, op'.result_of_not_mem V₂ h2]
    exact h p hp

end Agree

end Idealize.ShloMosaic.StableHlo
-- ==== Proof.Sparse.lean ====
import proofs.«403154_j48490180772546_4_alg».proof.Proof.LibAgreeLaunch
import proofs.«403154_j48490180772546_4_alg».proof.Proof.Gen.KernelIdeal.Launch
import proofs.«403154_j48490180772546_4_alg».proof.Proof.Gen.ReferenceIdeal.Run
import Idealize.ShloMosaic.PureOps.Ideal

/-!
# The sparse half of every layer, the two programs side by side

After its dense step each layer gathers the transformed features of every edge's source node, scales them by the edge's
weight, adds them up per target node, adds the bias and clamps at zero. The two programs do this with the same host
operations on buffers of the same names; only the dense step before them differs. So from valuations that agree on the
arguments and on the dense step's result, the valuations after a layer's sparse half agree on the arguments and on the
layer's result: each operation is met by the same operation on the other side, one rule per operation, in order.
-/

set_option maxRecDepth 16384

noncomputable section

namespace Cert.Sparse

open Idealize.ShloMosaic Idealize.ShloMosaic.StableHlo

/-- The eight argument arrays, paired by position. -/
abbrev args : List (Ref Cert.KernelIdeal.sig .tc × Ref Cert.ReferenceIdeal.sig .tc) :=
  [ (Cert.KernelIdeal.main_arg0, Cert.ReferenceIdeal.main_arg0), (Cert.KernelIdeal.main_arg1, Cert.ReferenceIdeal.main_arg1),
    (Cert.KernelIdeal.main_arg2, Cert.ReferenceIdeal.main_arg2), (Cert.KernelIdeal.main_arg3, Cert.ReferenceIdeal.main_arg3),
    (Cert.KernelIdeal.main_arg4, Cert.ReferenceIdeal.main_arg4), (Cert.KernelIdeal.main_arg5, Cert.ReferenceIdeal.main_arg5),
    (Cert.KernelIdeal.main_arg6, Cert.ReferenceIdeal.main_arg6), (Cert.KernelIdeal.main_arg7, Cert.ReferenceIdeal.main_arg7) ]

/-- The reference's whole line of operations, at the extended reals. -/
abbrev refOps : List (HloOp Cert.ReferenceIdeal.τ Cert.ReferenceIdeal.sig (Elt Ideal)) := Cert.ReferenceIdeal.Value.ops (F := Ideal)

/-- The reference's layer `l` is 23 operations: its matrix product, the 19 operations of the sparse half up to the
    bias, and the 3 of the clamp at zero. -/
abbrev refSparse (l : Nat) : List (HloOp Cert.ReferenceIdeal.τ Cert.ReferenceIdeal.sig (Elt Ideal)) := (refOps.drop (23 * l + 1)).take 19
abbrev refClamp (l : Nat) : List (HloOp Cert.ReferenceIdeal.τ Cert.ReferenceIdeal.sig (Elt Ideal)) := (refOps.drop (23 * l + 20)).take 3

/-- A constant on both sides. -/
local macro "op0" : tactic => `(tactic| refine Sim.nullary HEq.rfl (by decide) (by decide) ?_)
/-- The same function of one buffer on both sides. -/
local macro "op1" : tactic => `(tactic| refine Sim.unary (by decide) rfl rfl HEq.rfl (by decide) (by decide) ?_)
/-- The same function of two buffers on both sides. -/
local macro "op2" : tactic => `(tactic| refine Sim.binary (by decide) (by decide) rfl rfl rfl HEq.rfl (by decide) (by decide) ?_)
/-- The same function of three buffers on both sides. -/
local macro "op3" : tactic =>
  `(tactic| refine Sim.ternary (by decide) (by decide) (by decide) rfl rfl rfl rfl HEq.rfl (by decide) (by decide) ?_)

/-- The sparse half up to the bias, operation by operation: the edge weights as a column; the source indices wrapped
    into range (compare with zero, add the node count, select) and made a column; the gather of the transformed
    features; the weights spread over the feature axis and multiplied in; the zero accumulator; the target indices as a
    column; the scatter-add; the bias spread over the nodes and added. -/
local macro "sparse_steps" : tactic =>
  `(tactic| (op1; op0; op1; op2; op0; op1; op2; op3; op1; op2; op1; op2; op0; op1; op1; op3; op1; op1; op2))
/-- The clamp at zero: the zero constant, spread over the result, and the maximum with it. -/
local macro "clamp_steps" : tactic => `(tactic| (op0; op1; op2))

/-! ## The first layer -/

/-- From agreement on the arguments and on the dense step's result to agreement on the arguments and on the sum with the bias. -/
theorem sparse0 : Sim (τ := Cert.KernelIdeal.τ) ((Cert.KernelIdeal.main_v0, Cert.ReferenceIdeal.main_v0) :: args)
    (Cert.KernelIdeal.Gen.hostOps1 (F := Ideal)) (refSparse 0)
    ((Cert.KernelIdeal.main_v16, Cert.ReferenceIdeal.main_v16) :: args) := by
  sparse_steps
  exact Sim.done (by decide)
/-- From there to agreement on the arguments and on the layer's result. -/
theorem clamp0 : Sim (τ := Cert.KernelIdeal.τ) ((Cert.KernelIdeal.main_v16, Cert.ReferenceIdeal.main_v16) :: args)
    (Cert.KernelIdeal.Gen.hostOps1_1 (F := Ideal)) (refClamp 0)
    ((Cert.KernelIdeal.main_v17, Cert.ReferenceIdeal.main_v17) :: args) := by
  clamp_steps
  exact Sim.done (by decide)

/-! ## The second layer -/

theorem sparse1 : Sim (τ := Cert.KernelIdeal.τ) ((Cert.KernelIdeal.main_v18, Cert.ReferenceIdeal.main_v18) :: args)
    (Cert.KernelIdeal.Gen.hostOps2 (F := Ideal)) (refSparse 1)
    ((Cert.KernelIdeal.main_v34, Cert.ReferenceIdeal.main_v34) :: args) := by
  sparse_steps
  exact Sim.done (by decide)
theorem clamp1 : Sim (τ := Cert.KernelIdeal.τ) ((Cert.KernelIdeal.main_v34, Cert.ReferenceIdeal.main_v34) :: args)
    (Cert.KernelIdeal.Gen.hostOps2_1 (F := Ideal)) (refClamp 1)
    ((Cert.KernelIdeal.main_v35, Cert.ReferenceIdeal.main_v35) :: args) := by
  clamp_steps
  exact Sim.done (by decide)

/-! ## The third layer -/

theorem sparse2 : Sim (τ := Cert.KernelIdeal.τ) ((Cert.KernelIdeal.main_v36, Cert.ReferenceIdeal.main_v36) :: args)
    (Cert.KernelIdeal.Gen.hostOps3 (F := Ideal)) (refSparse 2)
    ((Cert.KernelIdeal.main_v52, Cert.ReferenceIdeal.main_v52) :: args) := by
  sparse_steps
  exact Sim.done (by decide)
theorem clamp2 : Sim (τ := Cert.KernelIdeal.τ) ((Cert.KernelIdeal.main_v52, Cert.ReferenceIdeal.main_v52) :: args)
    (Cert.KernelIdeal.Gen.hostOps3_1 (F := Ideal)) (refClamp 2)
    ((Cert.KernelIdeal.main_v53, Cert.ReferenceIdeal.main_v53) :: args) := by
  clamp_steps
  exact Sim.done (by decide)

/-! ## The fourth layer -/

theorem sparse3 : Sim (τ := Cert.KernelIdeal.τ) ((Cert.KernelIdeal.main_v54, Cert.ReferenceIdeal.main_v54) :: args)
    (Cert.KernelIdeal.Gen.hostOps4 (F := Ideal)) (refSparse 3)
    ((Cert.KernelIdeal.main_v70, Cert.ReferenceIdeal.main_v70) :: args) := by
  sparse_steps
  exact Sim.done (by decide)
theorem clamp3 : Sim (τ := Cert.KernelIdeal.τ) ((Cert.KernelIdeal.main_v70, Cert.ReferenceIdeal.main_v70) :: args)
    (Cert.KernelIdeal.Gen.hostOps4_1 (F := Ideal)) (refClamp 3)
    ((Cert.KernelIdeal.main_v71, Cert.ReferenceIdeal.main_v71) :: args) := by
  clamp_steps
  exact Sim.done (by decide)

/-! ## The fifth layer; its result is the program's -/

theorem sparse4 : Sim (τ := Cert.KernelIdeal.τ) ((Cert.KernelIdeal.main_v72, Cert.ReferenceIdeal.main_v72) :: args)
    (Cert.KernelIdeal.Gen.hostOps5 (F := Ideal)) (refSparse 4)
    ((Cert.KernelIdeal.main_v88, Cert.ReferenceIdeal.main_v88) :: args) := by
  sparse_steps
  exact Sim.done (by decide)
theorem clamp4 : Sim (τ := Cert.KernelIdeal.τ) ((Cert.KernelIdeal.main_v88, Cert.ReferenceIdeal.main_v88) :: args)
    (Cert.KernelIdeal.Gen.hostOps5_1 (F := Ideal)) (refClamp 4)
    ((Cert.KernelIdeal.main_v89, Cert.ReferenceIdeal.main_v89) :: args) := by
  clamp_steps
  exact Sim.done (by decide)

end Cert.Sparse

end
-- ==== Proof.Chain.lean ====
import proofs.«403154_j48490180772546_4_alg».proof.Proof.Keep
import proofs.«403154_j48490180772546_4_alg».proof.Proof.Region0
import proofs.«403154_j48490180772546_4_alg».proof.Proof.Region1
import proofs.«403154_j48490180772546_4_alg».proof.Proof.Region2
import proofs.«403154_j48490180772546_4_alg».proof.Proof.Region3
import proofs.«403154_j48490180772546_4_alg».proof.Proof.Region4
import proofs.«403154_j48490180772546_4_alg».proof.Proof.RefDot
import proofs.«403154_j48490180772546_4_alg».proof.Proof.Sparse

/-!
# The two programs compute the same result

Both programs run five layers. A layer is a dense step (features times weights) followed by a sparse half (gather,
scale, scatter-add, bias, clamp). The reference does the dense step by one host matrix product; the kernel program by a
launch that walks the rows in blocks. Both are the same whole product of the same two arrays, so the agreement of the
two programs' buffers steps through a dense step as it steps through a pair of host operations. The sparse halves are
the same operations. From memories that agree on the arguments, the agreement is carried layer by layer to the result.
-/

set_option maxRecDepth 16384

noncomputable section

namespace Cert.Chain

open Idealize.ShloMosaic Idealize.ShloMosaic.StableHlo Idealize.ShloMosaic.TcCoe Idealize.SL.Sem
open Cert.Sparse (args refOps refSparse refClamp)

/-! ## The reference's five matrix products, and its line of operations layer by layer -/

abbrev dot0 : HloOp Cert.ReferenceIdeal.τ Cert.ReferenceIdeal.sig (Elt Ideal) :=
  binary Cert.ReferenceIdeal.main_arg0 Cert.ReferenceIdeal.main_arg4 Cert.ReferenceIdeal.main_v0
    ((fun l r => Host.dotGeneral (F := Ideal) (φ₁ := .f32) (φ₂ := .f32) Cert.ReferenceIdeal.dot_S100000x256_S256x128_S100000x128_1_0_0_1_n_n none l r) :
      (⟨Cert.ReferenceIdeal.S100000x256, .f32⟩ : BufTy).Contents (Elt Ideal) → (⟨Cert.ReferenceIdeal.S256x128, .f32⟩ : BufTy).Contents (Elt Ideal) → (⟨Cert.ReferenceIdeal.S100000x128, .f32⟩ : BufTy).Contents (Elt Ideal))
abbrev dot1 : HloOp Cert.ReferenceIdeal.τ Cert.ReferenceIdeal.sig (Elt Ideal) :=
  binary Cert.ReferenceIdeal.main_v17 Cert.ReferenceIdeal.main_arg6 Cert.ReferenceIdeal.main_v18
    ((fun l r => Host.dotGeneral (F := Ideal) (φ₁ := .f32) (φ₂ := .f32) Cert.ReferenceIdeal.dot_S100000x128_S128x128_S100000x128_1_0_0_1_n_n none l r) :
      (⟨Cert.ReferenceIdeal.S100000x128, .f32⟩ : BufTy).Contents (Elt Ideal) → (⟨Cert.ReferenceIdeal.S128x128, .f32⟩ : BufTy).Contents (Elt Ideal) → (⟨Cert.ReferenceIdeal.S100000x128, .f32⟩ : BufTy).Contents (Elt Ideal))
abbrev dot2 : HloOp Cert.ReferenceIdeal.τ Cert.ReferenceIdeal.sig (Elt Ideal) :=
  binary Cert.ReferenceIdeal.main_v35 Cert.ReferenceIdeal.main_arg6 Cert.ReferenceIdeal.main_v36
    ((fun l r => Host.dotGeneral (F := Ideal) (φ₁ := .f32) (φ₂ := .f32) Cert.ReferenceIdeal.dot_S100000x128_S128x128_S100000x128_1_0_0_1_n_n none l r) :
      (⟨Cert.ReferenceIdeal.S100000x128, .f32⟩ : BufTy).Contents (Elt Ideal) → (⟨Cert.ReferenceIdeal.S128x128, .f32⟩ : BufTy).Contents (Elt Ideal) → (⟨Cert.ReferenceIdeal.S100000x128, .f32⟩ : BufTy).Contents (Elt Ideal))
abbrev dot3 : HloOp Cert.ReferenceIdeal.τ Cert.ReferenceIdeal.sig (Elt Ideal) :=
  binary Cert.ReferenceIdeal.main_v53 Cert.ReferenceIdeal.main_arg6 Cert.ReferenceIdeal.main_v54
    ((fun l r => Host.dotGeneral (F := Ideal) (φ₁ := .f32) (φ₂ := .f32) Cert.ReferenceIdeal.dot_S100000x128_S128x128_S100000x128_1_0_0_1_n_n none l r) :
      (⟨Cert.ReferenceIdeal.S100000x128, .f32⟩ : BufTy).Contents (Elt Ideal) → (⟨Cert.ReferenceIdeal.S128x128, .f32⟩ : BufTy).Contents (Elt Ideal) → (⟨Cert.ReferenceIdeal.S100000x128, .f32⟩ : BufTy).Contents (Elt Ideal))
abbrev dot4 : HloOp Cert.ReferenceIdeal.τ Cert.ReferenceIdeal.sig (Elt Ideal) :=
  binary Cert.ReferenceIdeal.main_v71 Cert.ReferenceIdeal.main_arg6 Cert.ReferenceIdeal.main_v72
    ((fun l r => Host.dotGeneral (F := Ideal) (φ₁ := .f32) (φ₂ := .f32) Cert.ReferenceIdeal.dot_S100000x128_S128x128_S100000x128_1_0_0_1_n_n none l r) :
      (⟨Cert.ReferenceIdeal.S100000x128, .f32⟩ : BufTy).Contents (Elt Ideal) → (⟨Cert.ReferenceIdeal.S128x128, .f32⟩ : BufTy).Contents (Elt Ideal) → (⟨Cert.ReferenceIdeal.S100000x128, .f32⟩ : BufTy).Contents (Elt Ideal))

/-- The reference's line is its five layers in a row, each a matrix product, a sparse half and a clamp. -/
theorem refOps_split : refOps =
    dot0 :: (refSparse 0 ++ (refClamp 0 ++ (dot1 :: (refSparse 1 ++ (refClamp 1 ++ (dot2 :: (refSparse 2 ++ (refClamp 2 ++
      (dot3 :: (refSparse 3 ++ (refClamp 3 ++ (dot4 :: (refSparse 4 ++ refClamp 4))))))))))))) := rfl

/-! ## A dense step on both sides -/

/-- Arrays of the sizes that occur, as functions of an index. -/
abbrev X256 : Type := (⟨2, ![100000, 256]⟩ : Shape).Idx → EReal
abbrev X128 : Type := (⟨2, ![100000, 128]⟩ : Shape).Idx → EReal
abbrev W256 : Type := (⟨2, ![256, 128]⟩ : Shape).Idx → EReal
abbrev W128 : Type := (⟨2, ![128, 128]⟩ : Shape).Idx → EReal

variable (m : (ℓ : Loc Cert.KernelIdeal.nD Cert.KernelIdeal.τ Cert.KernelIdeal.sig) → Buf (Elt Ideal) ℓ) (ρ : Dev Cert.KernelIdeal.nD → PrngReg)

/-- The first layer's dense step: the launch on one side, the host product on the other, of arrays that agree. -/
theorem launch0 (c : Dev Cert.KernelIdeal.nD) (U : Valuation Cert.ReferenceIdeal.τ Cert.ReferenceIdeal.sig (Elt Ideal))
    (h : Agree (τ := Cert.KernelIdeal.τ) args (Cert.KernelIdeal.Gen.W0 m ρ c) U) :
    Agree (τ := Cert.KernelIdeal.τ) ((Cert.KernelIdeal.main_v0, Cert.ReferenceIdeal.main_v0) :: args)
      (Cert.KernelIdeal.Gen.W1 m ρ c) (dot0.result U) := by
  refine h.launch (Cert.KernelIdeal.Keep.keep0 m ρ c) rfl (by decide) (by decide) ?_
  have ax : (Cert.KernelIdeal.Gen.V0 m ρ c (Pipeline.arrRef Cert.KernelIdeal.spec0 0) : X256) = (U (Proc.devRef .tc Cert.ReferenceIdeal.main_arg0) : X256) :=
    eq_of_heq (h.get (a := Cert.KernelIdeal.main_arg0) (a' := Cert.ReferenceIdeal.main_arg0) (by decide))
  have aw : (Cert.KernelIdeal.Gen.V0 m ρ c (Pipeline.arrRef Cert.KernelIdeal.spec0 1) : W256) = (U (Proc.devRef .tc Cert.ReferenceIdeal.main_arg4) : W256) :=
    eq_of_heq (h.get (a := Cert.KernelIdeal.main_arg4) (a' := Cert.ReferenceIdeal.main_arg4) (by decide))
  have e1 : (Cert.KernelIdeal.Gen.W1 m ρ c (Proc.devRef .tc Cert.KernelIdeal.main_v0) : X128)
      = Cert.MatSpec.mm256 (Cert.KernelIdeal.Gen.V0 m ρ c (Pipeline.arrRef Cert.KernelIdeal.spec0 0)) (Cert.KernelIdeal.Gen.V0 m ρ c (Pipeline.arrRef Cert.KernelIdeal.spec0 1)) :=
    (Cert.KernelIdeal.Gen.W1_arr m ρ c 2).trans (Cert.KernelIdeal.Region0.out_eq (Cert.KernelIdeal.Gen.V0 m ρ) c)
  have e2 : (dot0.result U (Proc.devRef .tc Cert.ReferenceIdeal.main_v0) : X128)
      = Cert.MatSpec.mm256 (U (Proc.devRef .tc Cert.ReferenceIdeal.main_arg0)) (U (Proc.devRef .tc Cert.ReferenceIdeal.main_arg4)) :=
    (binary_result Cert.ReferenceIdeal.main_arg0 Cert.ReferenceIdeal.main_arg4 Cert.ReferenceIdeal.main_v0 _ _ _ _ U).trans (Cert.ReferenceIdeal.RefDot.dot256_eq _ _)
  exact heq_of_eq (e1.trans ((congrArg₂ Cert.MatSpec.mm256 ax aw).trans e2.symm))

/-- The second layer's dense step. -/
theorem launch1 (c : Dev Cert.KernelIdeal.nD) (U : Valuation Cert.ReferenceIdeal.τ Cert.ReferenceIdeal.sig (Elt Ideal))
    (h : Agree (τ := Cert.KernelIdeal.τ) ((Cert.KernelIdeal.main_v17, Cert.ReferenceIdeal.main_v17) :: args) (Cert.KernelIdeal.Gen.W3 m ρ c) U) :
    Agree (τ := Cert.KernelIdeal.τ) ((Cert.KernelIdeal.main_v18, Cert.ReferenceIdeal.main_v18) :: args)
      (Cert.KernelIdeal.Gen.W4 m ρ c) (dot1.result U) := by
  refine (h.launch (Cert.KernelIdeal.Keep.keep1 m ρ c) rfl (by decide) (by decide) ?_).mono (by decide)
  have ax : (Cert.KernelIdeal.Gen.V3 m ρ c (Pipeline.arrRef Cert.KernelIdeal.spec1 0) : X128) = (U (Proc.devRef .tc Cert.ReferenceIdeal.main_v17) : X128) :=
    eq_of_heq (h.get (a := Cert.KernelIdeal.main_v17) (a' := Cert.ReferenceIdeal.main_v17) (by decide))
  have aw : (Cert.KernelIdeal.Gen.V3 m ρ c (Pipeline.arrRef Cert.KernelIdeal.spec1 1) : W128) = (U (Proc.devRef .tc Cert.ReferenceIdeal.main_arg6) : W128) :=
    eq_of_heq (h.get (a := Cert.KernelIdeal.main_arg6) (a' := Cert.ReferenceIdeal.main_arg6) (by decide))
  have e1 : (Cert.KernelIdeal.Gen.W4 m ρ c (Proc.devRef .tc Cert.KernelIdeal.main_v18) : X128)
      = Cert.MatSpec.mm128 (Cert.KernelIdeal.Gen.V3 m ρ c (Pipeline.arrRef Cert.KernelIdeal.spec1 0)) (Cert.KernelIdeal.Gen.V3 m ρ c (Pipeline.arrRef Cert.KernelIdeal.spec1 1)) :=
    (Cert.KernelIdeal.Gen.W4_arr m ρ c 2).trans (Cert.KernelIdeal.Region1.out_eq (Cert.KernelIdeal.Gen.V3 m ρ) c)
  have e2 : (dot1.result U (Proc.devRef .tc Cert.ReferenceIdeal.main_v18) : X128)
      = Cert.MatSpec.mm128 (U (Proc.devRef .tc Cert.ReferenceIdeal.main_v17)) (U (Proc.devRef .tc Cert.ReferenceIdeal.main_arg6)) :=
    (binary_result Cert.ReferenceIdeal.main_v17 Cert.ReferenceIdeal.main_arg6 Cert.ReferenceIdeal.main_v18 _ _ _ _ U).trans (Cert.ReferenceIdeal.RefDot.dot128_eq _ _)
  exact heq_of_eq (e1.trans ((congrArg₂ Cert.MatSpec.mm128 ax aw).trans e2.symm))

/-- The third layer's dense step. -/
theorem launch2 (c : Dev Cert.KernelIdeal.nD) (U : Valuation Cert.ReferenceIdeal.τ Cert.ReferenceIdeal.sig (Elt Ideal))
    (h : Agree (τ := Cert.KernelIdeal.τ) ((Cert.KernelIdeal.main_v35, Cert.ReferenceIdeal.main_v35) :: args) (Cert.KernelIdeal.Gen.W6 m ρ c) U) :
    Agree (τ := Cert.KernelIdeal.τ) ((Cert.KernelIdeal.main_v36, Cert.ReferenceIdeal.main_v36) :: args)
      (Cert.KernelIdeal.Gen.W7 m ρ c) (dot2.result U) := by
  refine (h.launch (Cert.KernelIdeal.Keep.keep2 m ρ c) rfl (by decide) (by decide) ?_).mono (by decide)
  have ax : (Cert.KernelIdeal.Gen.V6 m ρ c (Pipeline.arrRef Cert.KernelIdeal.spec2 0) : X128) = (U (Proc.devRef .tc Cert.ReferenceIdeal.main_v35) : X128) :=
    eq_of_heq (h.get (a := Cert.KernelIdeal.main_v35) (a' := Cert.ReferenceIdeal.main_v35) (by decide))
  have aw : (Cert.KernelIdeal.Gen.V6 m ρ c (Pipeline.arrRef Cert.KernelIdeal.spec2 1) : W128) = (U (Proc.devRef .tc Cert.ReferenceIdeal.main_arg6) : W128) :=
    eq_of_heq (h.get (a := Cert.KernelIdeal.main_arg6) (a' := Cert.ReferenceIdeal.main_arg6) (by decide))
  have e1 : (Cert.KernelIdeal.Gen.W7 m ρ c (Proc.devRef .tc Cert.KernelIdeal.main_v36) : X128)
      = Cert.MatSpec.mm128 (Cert.KernelIdeal.Gen.V6 m ρ c (Pipeline.arrRef Cert.KernelIdeal.spec2 0)) (Cert.KernelIdeal.Gen.V6 m ρ c (Pipeline.arrRef Cert.KernelIdeal.spec2 1)) :=
    (Cert.KernelIdeal.Gen.W7_arr m ρ c 2).trans (Cert.KernelIdeal.Region2.out_eq (Cert.KernelIdeal.Gen.V6 m ρ) c)
  have e2 : (dot2.result U (Proc.devRef .tc Cert.ReferenceIdeal.main_v36) : X128)
      = Cert.MatSpec.mm128 (U (Proc.devRef .tc Cert.ReferenceIdeal.main_v35)) (U (Proc.devRef .tc Cert.ReferenceIdeal.main_arg6)) :=
    (binary_result Cert.ReferenceIdeal.main_v35 Cert.ReferenceIdeal.main_arg6 Cert.ReferenceIdeal.main_v36 _ _ _ _ U).trans (Cert.ReferenceIdeal.RefDot.dot128_eq _ _)
  exact heq_of_eq (e1.trans ((congrArg₂ Cert.MatSpec.mm128 ax aw).trans e2.symm))

/-- The fourth layer's dense step. -/
theorem launch3 (c : Dev Cert.KernelIdeal.nD) (U : Valuation Cert.ReferenceIdeal.τ Cert.ReferenceIdeal.sig (Elt Ideal))
    (h : Agree (τ := Cert.KernelIdeal.τ) ((Cert.KernelIdeal.main_v53, Cert.ReferenceIdeal.main_v53) :: args) (Cert.KernelIdeal.Gen.W9 m ρ c) U) :
    Agree (τ := Cert.KernelIdeal.τ) ((Cert.KernelIdeal.main_v54, Cert.ReferenceIdeal.main_v54) :: args)
      (Cert.KernelIdeal.Gen.W10 m ρ c) (dot3.result U) := by
  refine (h.launch (Cert.KernelIdeal.Keep.keep3 m ρ c) rfl (by decide) (by decide) ?_).mono (by decide)
  have ax : (Cert.KernelIdeal.Gen.V9 m ρ c (Pipeline.arrRef Cert.KernelIdeal.spec3 0) : X128) = (U (Proc.devRef .tc Cert.ReferenceIdeal.main_v53) : X128) :=
    eq_of_heq (h.get (a := Cert.KernelIdeal.main_v53) (a' := Cert.ReferenceIdeal.main_v53) (by decide))
  have aw : (Cert.KernelIdeal.Gen.V9 m ρ c (Pipeline.arrRef Cert.KernelIdeal.spec3 1) : W128) = (U (Proc.devRef .tc Cert.ReferenceIdeal.main_arg6) : W128) :=
    eq_of_heq (h.get (a := Cert.KernelIdeal.main_arg6) (a' := Cert.ReferenceIdeal.main_arg6) (by decide))
  have e1 : (Cert.KernelIdeal.Gen.W10 m ρ c (Proc.devRef .tc Cert.KernelIdeal.main_v54) : X128)
      = Cert.MatSpec.mm128 (Cert.KernelIdeal.Gen.V9 m ρ c (Pipeline.arrRef Cert.KernelIdeal.spec3 0)) (Cert.KernelIdeal.Gen.V9 m ρ c (Pipeline.arrRef Cert.KernelIdeal.spec3 1)) :=
    (Cert.KernelIdeal.Gen.W10_arr m ρ c 2).trans (Cert.KernelIdeal.Region3.out_eq (Cert.KernelIdeal.Gen.V9 m ρ) c)
  have e2 : (dot3.result U (Proc.devRef .tc Cert.ReferenceIdeal.main_v54) : X128)
      = Cert.MatSpec.mm128 (U (Proc.devRef .tc Cert.ReferenceIdeal.main_v53)) (U (Proc.devRef .tc Cert.ReferenceIdeal.main_arg6)) :=
    (binary_result Cert.ReferenceIdeal.main_v53 Cert.ReferenceIdeal.main_arg6 Cert.ReferenceIdeal.main_v54 _ _ _ _ U).trans (Cert.ReferenceIdeal.RefDot.dot128_eq _ _)
  exact heq_of_eq (e1.trans ((congrArg₂ Cert.MatSpec.mm128 ax aw).trans e2.symm))

/-- The fifth layer's dense step. -/
theorem launch4 (c : Dev Cert.KernelIdeal.nD) (U : Valuation Cert.ReferenceIdeal.τ Cert.ReferenceIdeal.sig (Elt Ideal))
    (h : Agree (τ := Cert.KernelIdeal.τ) ((Cert.KernelIdeal.main_v71, Cert.ReferenceIdeal.main_v71) :: args) (Cert.KernelIdeal.Gen.W12 m ρ c) U) :
    Agree (τ := Cert.KernelIdeal.τ) ((Cert.KernelIdeal.main_v72, Cert.ReferenceIdeal.main_v72) :: args)
      (Cert.KernelIdeal.Gen.W13 m ρ c) (dot4.result U) := by
  refine (h.launch (Cert.KernelIdeal.Keep.keep4 m ρ c) rfl (by decide) (by decide) ?_).mono (by decide)
  have ax : (Cert.KernelIdeal.Gen.V12 m ρ c (Pipeline.arrRef Cert.KernelIdeal.spec4 0) : X128) = (U (Proc.devRef .tc Cert.ReferenceIdeal.main_v71) : X128) :=
    eq_of_heq (h.get (a := Cert.KernelIdeal.main_v71) (a' := Cert.ReferenceIdeal.main_v71) (by decide))
  have aw : (Cert.KernelIdeal.Gen.V12 m ρ c (Pipeline.arrRef Cert.KernelIdeal.spec4 1) : W128) = (U (Proc.devRef .tc Cert.ReferenceIdeal.main_arg6) : W128) :=
    eq_of_heq (h.get (a := Cert.KernelIdeal.main_arg6) (a' := Cert.ReferenceIdeal.main_arg6) (by decide))
  have e1 : (Cert.KernelIdeal.Gen.W13 m ρ c (Proc.devRef .tc Cert.KernelIdeal.main_v72) : X128)
      = Cert.MatSpec.mm128 (Cert.KernelIdeal.Gen.V12 m ρ c (Pipeline.arrRef Cert.KernelIdeal.spec4 0)) (Cert.KernelIdeal.Gen.V12 m ρ c (Pipeline.arrRef Cert.KernelIdeal.spec4 1)) :=
    (Cert.KernelIdeal.Gen.W13_arr m ρ c 2).trans (Cert.KernelIdeal.Region4.out_eq (Cert.KernelIdeal.Gen.V12 m ρ) c)
  have e2 : (dot4.result U (Proc.devRef .tc Cert.ReferenceIdeal.main_v72) : X128)
      = Cert.MatSpec.mm128 (U (Proc.devRef .tc Cert.ReferenceIdeal.main_v71)) (U (Proc.devRef .tc Cert.ReferenceIdeal.main_arg6)) :=
    (binary_result Cert.ReferenceIdeal.main_v71 Cert.ReferenceIdeal.main_arg6 Cert.ReferenceIdeal.main_v72 _ _ _ _ U).trans (Cert.ReferenceIdeal.RefDot.dot128_eq _ _)
  exact heq_of_eq (e1.trans ((congrArg₂ Cert.MatSpec.mm128 ax aw).trans e2.symm))

/-! ## The five layers in a row -/

/-- From memories that agree on the arguments, the kernel program's last boundary and the reference's fold agree on the
    arguments and on the result. -/
theorem result_agree (c : Dev Cert.KernelIdeal.nD) (U0 : Valuation Cert.ReferenceIdeal.τ Cert.ReferenceIdeal.sig (Elt Ideal))
    (h0 : Agree (τ := Cert.KernelIdeal.τ) args (Cert.KernelIdeal.Gen.W0 m ρ c) U0) :
    Agree (τ := Cert.KernelIdeal.τ) ((Cert.KernelIdeal.main_v89, Cert.ReferenceIdeal.main_v89) :: args)
      (Cert.KernelIdeal.Gen.W15 m ρ c) (after refOps U0) := by
  have h1 := launch0 m ρ c U0 h0
  have h3 := Cert.Sparse.clamp0 _ _ (Cert.Sparse.sparse0 _ _ h1)
  have h4 := launch1 m ρ c _ h3
  have h6 := Cert.Sparse.clamp1 _ _ (Cert.Sparse.sparse1 _ _ h4)
  have h7 := launch2 m ρ c _ h6
  have h9 := Cert.Sparse.clamp2 _ _ (Cert.Sparse.sparse2 _ _ h7)
  have h10 := launch3 m ρ c _ h9
  have h12 := Cert.Sparse.clamp3 _ _ (Cert.Sparse.sparse3 _ _ h10)
  have h13 := launch4 m ρ c _ h12
  have h15 := Cert.Sparse.clamp4 _ _ (Cert.Sparse.sparse4 _ _ h13)
  rw [refOps_split]
  simp only [after_cons, after_append]
  exact h15

end Cert.Chain

end
-- ==== Proof.lean ====
/-
  Five graph-convolution layers, the first with its own weights and bias, the other four sharing one weight matrix and
  one bias: each layer multiplies the node features by a weight matrix (the dense step), then for every edge gathers the source node's transformed features, scales them by the edge's
  weight, adds them up per target node, adds a bias and clamps at zero (the sparse half). The kernel program does the
  dense step of each layer by a matrix-unit launch over blocks of 5000 node rows and the sparse half by host
  operations; the reference does the dense step by one host matrix product and the sparse half by the same host
  operations.

  Over the extended reals a launch's blocks are the rows of the one whole product (an entry of a block is the same sum
  over the contraction position as the corresponding entry of the whole product, and the blocks partition the rows), so
  the two programs' buffers agree after every dense step when they agreed before it, and after every host operation of
  a sparse half because it is the same operation on both sides. No law of arithmetic beyond that is used: sums are
  never reordered, nothing is distributed or cancelled, so the inputs' finiteness plays no part and the equality
  holds whatever the index inputs are (an out-of-range gather or scatter index reads or writes the same way on both
  sides).

  The three frames are the generated ones (for the reference, its generated run with the result dropped); the
  idealized kernel is the kernel's own text read over the extended reals, so `preserves` has nothing to state.
-/
import proofs.«403154_j48490180772546_4_alg».proof.Defs
import proofs.«403154_j48490180772546_4_alg».proof.Proof.Gen.Kernel
import proofs.«403154_j48490180772546_4_alg».proof.Proof.Gen.Kernel.Skeleton
import proofs.«403154_j48490180772546_4_alg».proof.Proof.Gen.Kernel.Launch
import proofs.«403154_j48490180772546_4_alg».proof.Proof.Gen.Kernel.Points
import proofs.«403154_j48490180772546_4_alg».proof.Proof.Gen.Kernel.Frame
import proofs.«403154_j48490180772546_4_alg».proof.Proof.Gen.KernelIdeal
import proofs.«403154_j48490180772546_4_alg».proof.Proof.Gen.KernelIdeal.Skeleton
import proofs.«403154_j48490180772546_4_alg».proof.Proof.Gen.KernelIdeal.Launch
import proofs.«403154_j48490180772546_4_alg».proof.Proof.Gen.KernelIdeal.Points
import proofs.«403154_j48490180772546_4_alg».proof.Proof.Gen.KernelIdeal.Frame
import proofs.«403154_j48490180772546_4_alg».proof.Proof.Gen.ReferenceIdeal
import proofs.«403154_j48490180772546_4_alg».proof.Proof.Gen.ReferenceIdeal.Run
import proofs.«403154_j48490180772546_4_alg».proof.Proof.Gen.Pre_finite_inputs
import proofs.«403154_j48490180772546_4_alg».proof.Proof.KernelRun
import proofs.«403154_j48490180772546_4_alg».proof.Proof.RefRun
import proofs.«403154_j48490180772546_4_alg».proof.Proof.Chain
import Idealize.ShloMosaic.Adequacy
import Idealize.ShloMosaic.Init

set_option maxRecDepth 16384

noncomputable section

namespace Cert.Proof

open Idealize.ShloMosaic Idealize.ShloMosaic.StableHlo Idealize.ShloMosaic.TcCoe Idealize.SL.Sem

/-- The kernel program at the word level runs, and keeps its arguments: the generated frame. -/
theorem frame_kernel : Cert.frame_Kernel (hKernel := Cert.Kernel.Gen.facts) (hPre_finite_inputs := Cert.Pre_finite_inputs.Gen.facts) :=
  fun m ρ _ => Cert.Kernel.Gen.frame m ρ

/-- The same program over the extended reals: the generated frame. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its generated run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two programs end with the same result: the kernel program's result buffer at its last boundary's contents, the
    reference's at the fold of its operations, and the two agree because they agreed on the arguments at launch. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W15 m ρ c (Proc.devRef .tc Cert.KernelIdeal.main_v89), ?_, ?_⟩
  · exact (θ_run Cert.KernelIdeal.defs _ _).mono (fun r h c =>
      ⟨h c Cert.KernelIdeal.main_v89 (by decide),
       (h c Cert.KernelIdeal.main_arg0 (by decide)).trans (Cert.KernelIdeal.Gen.W15_main_arg0 m ρ c),
       (h c Cert.KernelIdeal.main_arg1 (by decide)).trans (Cert.KernelIdeal.Gen.W15_main_arg1 m ρ c),
       (h c Cert.KernelIdeal.main_arg2 (by decide)).trans (Cert.KernelIdeal.Gen.W15_main_arg2 m ρ c),
       (h c Cert.KernelIdeal.main_arg3 (by decide)).trans (Cert.KernelIdeal.Gen.W15_main_arg3 m ρ c),
       (h c Cert.KernelIdeal.main_arg4 (by decide)).trans (Cert.KernelIdeal.Gen.W15_main_arg4 m ρ c),
       (h c Cert.KernelIdeal.main_arg5 (by decide)).trans (Cert.KernelIdeal.Gen.W15_main_arg5 m ρ c),
       (h c Cert.KernelIdeal.main_arg6 (by decide)).trans (Cert.KernelIdeal.Gen.W15_main_arg6 m ρ c),
       (h c Cert.KernelIdeal.main_arg7 (by decide)).trans (Cert.KernelIdeal.Gen.W15_main_arg7 m ρ c)⟩)
      (Cert.KernelIdeal.Named.run_all m ρ)
  · refine (θ_run Cert.ReferenceIdeal.defs _ _).mono (fun r h c => ?_) (Cert.ReferenceIdeal.RefRun.run_after m' ρ')
    obtain ⟨g0, g1, g2, g3, g4, g5, g6, g7⟩ := hagree c
    -- at launch the two memories agree on the eight arguments
    have h0 : Agree (τ := Cert.KernelIdeal.τ) Cert.Sparse.args (Cert.KernelIdeal.Gen.W0 m ρ c) (launchContents m' c) :=
      Agree.cons (heq_of_eq g0.symm) (Agree.cons (heq_of_eq g1.symm) (Agree.cons (heq_of_eq g2.symm) (Agree.cons (heq_of_eq g3.symm)
        (Agree.cons (heq_of_eq g4.symm) (Agree.cons (heq_of_eq g5.symm) (Agree.cons (heq_of_eq g6.symm) (Agree.cons (heq_of_eq g7.symm) Agree.nil)))))))
    -- so at the end they agree on the arguments and on the result
    have hA := Cert.Chain.result_agree m ρ c (launchContents m' c) h0
    refine ⟨(h c Cert.ReferenceIdeal.main_v89).trans (eq_of_heq (hA.get (a := Cert.KernelIdeal.main_v89) (a' := Cert.ReferenceIdeal.main_v89) (by decide))).symm,
      (h c Cert.ReferenceIdeal.main_arg0).trans ((eq_of_heq (hA.get (a := Cert.KernelIdeal.main_arg0) (a' := Cert.ReferenceIdeal.main_arg0) (by decide))).symm.trans ((Cert.KernelIdeal.Gen.W15_main_arg0 m ρ c).trans g0.symm)),
      (h c Cert.ReferenceIdeal.main_arg1).trans ((eq_of_heq (hA.get (a := Cert.KernelIdeal.main_arg1) (a' := Cert.ReferenceIdeal.main_arg1) (by decide))).symm.trans ((Cert.KernelIdeal.Gen.W15_main_arg1 m ρ c).trans g1.symm)),
      (h c Cert.ReferenceIdeal.main_arg2).trans ((eq_of_heq (hA.get (a := Cert.KernelIdeal.main_arg2) (a' := Cert.ReferenceIdeal.main_arg2) (by decide))).symm.trans ((Cert.KernelIdeal.Gen.W15_main_arg2 m ρ c).trans g2.symm)),
      (h c Cert.ReferenceIdeal.main_arg3).trans ((eq_of_heq (hA.get (a := Cert.KernelIdeal.main_arg3) (a' := Cert.ReferenceIdeal.main_arg3) (by decide))).symm.trans ((Cert.KernelIdeal.Gen.W15_main_arg3 m ρ c).trans g3.symm)),
      (h c Cert.ReferenceIdeal.main_arg4).trans ((eq_of_heq (hA.get (a := Cert.KernelIdeal.main_arg4) (a' := Cert.ReferenceIdeal.main_arg4) (by decide))).symm.trans ((Cert.KernelIdeal.Gen.W15_main_arg4 m ρ c).trans g4.symm)),
      (h c Cert.ReferenceIdeal.main_arg5).trans ((eq_of_heq (hA.get (a := Cert.KernelIdeal.main_arg5) (a' := Cert.ReferenceIdeal.main_arg5) (by decide))).symm.trans ((Cert.KernelIdeal.Gen.W15_main_arg5 m ρ c).trans g5.symm)),
      (h c Cert.ReferenceIdeal.main_arg6).trans ((eq_of_heq (hA.get (a := Cert.KernelIdeal.main_arg6) (a' := Cert.ReferenceIdeal.main_arg6) (by decide))).symm.trans ((Cert.KernelIdeal.Gen.W15_main_arg6 m ρ c).trans g6.symm)),
      (h c Cert.ReferenceIdeal.main_arg7).trans ((eq_of_heq (hA.get (a := Cert.KernelIdeal.main_arg7) (a' := Cert.ReferenceIdeal.main_arg7) (by decide))).symm.trans ((Cert.KernelIdeal.Gen.W15_main_arg7 m ρ c).trans g7.symm))⟩

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
